-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x128 : Shape := ⟨2, ![65536, 128]⟩
abbrev S8x65536x128 : Shape := ⟨3, ![8, 65536, 128]⟩
abbrev S128x128 : Shape := ⟨2, ![128, 128]⟩
abbrev S128 : Shape := ⟨1, ![128]⟩
abbrev S132x256 : Shape := ⟨2, ![132, 256]⟩
abbrev S132 : Shape := ⟨1, ![132]⟩
abbrev S132x132 : Shape := ⟨2, ![132, 132]⟩
abbrev S128x132 : Shape := ⟨2, ![128, 132]⟩
abbrev S_ : Shape := ⟨0, ![]⟩

class Facts : Prop where
  bcast_S_S65536x128 : S_.BroadcastsInDim S65536x128 (![] : Fin 0 → Fin S65536x128.rank)
  reducesTo_S65536x128_S_d0_1 : S65536x128.ReducesTo [0, 1] S_
  h_S_ : 0 < S_.numel
  bcast_S_S8x65536x128 : S_.BroadcastsInDim S8x65536x128 (![] : Fin 0 → Fin S8x65536x128.rank)
  reducesTo_S8x65536x128_S_d0_1_2 : S8x65536x128.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S132x256 : S_.BroadcastsInDim S132x256 (![] : Fin 0 → Fin S132x256.rank)
  reducesTo_S132x256_S_d0_1 : S132x256.ReducesTo [0, 1] S_
  bcast_S_S132 : S_.BroadcastsInDim S132 (![] : Fin 0 → Fin S132.rank)
  reducesTo_S132_S_d0 : S132.ReducesTo [0] S_
  bcast_S_S132x132 : S_.BroadcastsInDim S132x132 (![] : Fin 0 → Fin S132x132.rank)
  reducesTo_S132x132_S_d0_1 : S132x132.ReducesTo [0, 1] S_
  bcast_S_S128x132 : S_.BroadcastsInDim S128x132 (![] : Fin 0 → Fin S128x132.rank)
  reducesTo_S128x132_S_d0_1 : S128x132.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S132 .f32) (main_arg12 : FVec F S128x132 .f32) (main_arg13 : FVec F S128 .f32) (main_v48 : IVec S_ 1) (main_v49 : FVec F S132x132 .f32) (main_v50 : FVec F S132x132 .f32) : IVec S_ 1 :=
  let main_v51 : IVec S132x132 1 := cmpf .olt main_v49 main_v50
  let main_c_19 : IVec S_ 1 := constantI S_ 1 1#1
  let main_v52 : IVec S_ 1 := (fun x v => Host.reduce IntOp.andi x v reducesTo_S132x132_S_d0_1 h_S_) main_v51 main_c_19
  let main_v53 : IVec S_ 1 := andi main_v48 main_v52
  let main_v54 : FVec F S132 .f32 := Host.absf main_arg11
  let main_cst_20 : FVec F S_ .f32 := constant S_ .f32 0x7F800000#32
  let main_v55 : FVec F S132 .f32 := broadcastInDim S132 ![] bcast_S_S132 main_cst_20
  let main_v56 : IVec S132 1 := cmpf .olt main_v54 main_v55
  let main_c_21 : IVec S_ 1 := constantI S_ 1 1#1
  let main_v57 : IVec S_ 1 := (fun x v => Host.reduce IntOp.andi x v reducesTo_S132_S_d0 h_S_) main_v56 main_c_21
  let main_v58 : IVec S_ 1 := andi main_v53 main_v57
  let main_v59 : FVec F S128x132 .f32 := Host.absf main_arg12
  let main_cst_22 : FVec F S_ .f32 := constant S_ .f32 0x7F800000#32
  let main_v60 : FVec F S128x132 .f32 := broadcastInDim S128x132 ![] bcast_S_S128x132 main_cst_22
  let main_v61 : IVec S128x132 1 := cmpf .olt main_v59 main_v60
  let main_c_23 : IVec S_ 1 := constantI S_ 1 1#1
  let main_v62 : IVec S_ 1 := (fun x v => Host.reduce IntOp.andi x v reducesTo_S128x132_S_d0_1 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_v63 main_v67

def fn_part2 {F : FTy → Type} [FloatOps F] (main_arg7 : FVec F S132 .f32) (main_arg8 : FVec F S132x132 .f32) (main_arg9 : FVec F S132 .f32) (main_arg10 : FVec F S132x132 .f32) (main_arg11 : FVec F S132 .f32) (main_arg12 : FVec F S128x132 .f32) (main_arg13 : FVec F S128 .f32) (main_v33 : IVec S_ 1) : IVec S_ 1 :=
  let main_v34 : FVec F S132 .f32 := Host.absf main_arg7
  let main_cst_12 : FVec F S_ .f32 := constant S_ .f32 0x7F800000#32
  let main_v35 : FVec F S132 .f32 := broadcastInDim S132 ![] bcast_S_S132 main_cst_12
  let main_v36 : IVec S132 1 := cmpf .olt main_v34 main_v35
  let main_c_13 : IVec S_ 1 := constantI S_ 1 1#1
  let main_v37 : IVec S_ 1 := (fun x v => Host.reduce IntOp.andi x v reducesTo_S132_S_d0 h_S_) main_v36 main_c_13
  let main_v38 : IVec S_ 1 := andi main_v33 main_v37
  let main_v39 : FVec F S132x132 .f32 := Host.absf main_arg8
  let main_cst_14 : FVec F S_ .f32 := constant S_ .f32 0x7F800000#32
  let main_v40 : FVec F S132x132 .f32 := broadcastInDim S132x132 ![] bcast_S_S132x132 main_cst_14
  let main_v41 : IVec S132x132 1 := cmpf .olt main_v39 main_v40
  let main_c_15 : IVec S_ 1 := constantI S_ 1 1#1
  let main_v42 : IVec S_ 1 := (fun x v => Host.reduce IntOp.andi x v reducesTo_S132x132_S_d0_1 h_S_) main_v41 main_c_15
  let main_v43 : IVec S_ 1 := andi main_v38 main_v42
  let main_v44 : FVec F S132 .f32 := Host.absf main_arg9
  let main_cst_16 : FVec F S_ .f32 := constant S_ .f32 0x7F800000#32
  let main_v45 : FVec F S132 .f32 := broadcastInDim S132 ![] bcast_S_S132 main_cst_16
  let main_v46 : IVec S132 1 := cmpf .olt main_v44 main_v45
  let main_c_17 : IVec S_ 1 := constantI S_ 1 1#1
  let main_v47 : IVec S_ 1 := (fun x v => Host.reduce IntOp.andi x v reducesTo_S132_S_d0 h_S_) main_v46 main_c_17
  let main_v48 : IVec S_ 1 := andi main_v43 main_v47
  let main_v49 : FVec F S132x132 .f32 := Host.absf main_arg10
  let main_cst_18 : FVec F S_ .f32 := constant S_ .f32 0x7F800000#32
  let main_v50 : FVec F S132x132 .f32 := broadcastInDim S132x132 ![] bcast_S_S132x132 main_cst_18
  fn_part3 (F := F) main_arg11 main_arg12 main_arg13 main_v48 main_v49 main_v50

def fn_part1 {F : FTy → Type} [FloatOps F] (main_arg4 : FVec F S128x128 .f32) (main_arg5 : FVec F S128 .f32) (main_arg6 : FVec F S132x256 .f32) (main_arg7 : FVec F S132 .f32) (main_arg8 : FVec F S132x132 .f32) (main_arg9 : FVec F S132 .f32) (main_arg10 : FVec F S132x132 .f32) (main_arg11 : FVec F S132 .f32) (main_arg12 : FVec F S128x132 .f32) (main_arg13 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S132x256 .f32 := Host.absf main_arg6
  let main_cst_10 : FVec F S_ .f32 := constant S_ .f32 0x7F800000#32
  let main_v30 : FVec F S132x256 .f32 := broadcastInDim S132x256 ![] bcast_S_S132x256 main_cst_10
  let main_v31 : IVec S132x256 1 := cmpf .olt main_v29 main_v30
  let main_c_11 : IVec S_ 1 := constantI S_ 1 1#1
  let main_v32 : IVec S_ 1 := (fun x v => Host.reduce IntOp.andi x v reducesTo_S132x256_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S65536x128 .f32) (main_arg1 : FVec F S8x65536x128 .f32) (main_arg2 : FVec F S128x128 .f32) (main_arg3 : FVec F S128 .f32) (main_arg4 : FVec F S128x128 .f32) (main_arg5 : FVec F S128 .f32) (main_arg6 : FVec F S132x256 .f32) (main_arg7 : FVec F S132 .f32) (main_arg8 : FVec F S132x132 .f32) (main_arg9 : FVec F S132 .f32) (main_arg10 : FVec F S132x132 .f32) (main_arg11 : FVec F S132 .f32) (main_arg12 : FVec F S128x132 .f32) (main_arg13 : FVec F S128 .f32) : IVec S_ 1 :=
  let main_v0 : FVec F S65536x128 .f32 := Host.absf main_arg0
  let main_cst : FVec F S_ .f32 := constant S_ .f32 0x7F800000#32
  let main_v1 : FVec F S65536x128 .f32 := broadcastInDim S65536x128 ![] bcast_S_S65536x128 main_cst
  let main_v2 : IVec S65536x128 1 := cmpf .olt main_v0 main_v1
  let main_c : IVec S_ 1 := constantI S_ 1 1#1
  let main_v3 : IVec S_ 1 := (fun x v => Host.reduce IntOp.andi x v reducesTo_S65536x128_S_d0_1 h_S_) main_v2 main_c
  let main_v4 : FVec F S8x65536x128 .f32 := Host.absf main_arg1
  let main_cst_0 : FVec F S_ .f32 := constant S_ .f32 0x7F800000#32
  let main_v5 : FVec F S8x65536x128 .f32 := broadcastInDim S8x65536x128 ![] bcast_S_S8x65536x128 main_cst_0
  let main_v6 : IVec S8x65536x128 1 := cmpf .olt main_v4 main_v5
  let main_c_1 : IVec S_ 1 := constantI S_ 1 1#1
  let main_v7 : IVec S_ 1 := (fun x v => Host.reduce IntOp.andi x v reducesTo_S8x65536x128_S_d0_1_2 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_v13 main_v16
-- ==== Kernel.lean ====
abbrev S65536x128 : Shape := ⟨2, ![65536, 128]⟩
abbrev S8x65536x128 : Shape := ⟨3, ![8, 65536, 128]⟩
abbrev S128x128 : Shape := ⟨2, ![128, 128]⟩
abbrev S128 : Shape := ⟨1, ![128]⟩
abbrev S132x256 : Shape := ⟨2, ![132, 256]⟩
abbrev S132 : Shape := ⟨1, ![132]⟩
abbrev S132x132 : Shape := ⟨2, ![132, 132]⟩
abbrev S128x132 : Shape := ⟨2, ![128, 132]⟩
abbrev S1x128 : Shape := ⟨2, ![1, 128]⟩
abbrev S1x132 : Shape := ⟨2, ![1, 132]⟩
abbrev S8x1024x128 : Shape := ⟨3, ![8, 1024, 128]⟩
abbrev S1024x128 : Shape := ⟨2, ![1024, 128]⟩
abbrev S1024x256 : Shape := ⟨2, ![1024, 256]⟩
abbrev S256x132 : Shape := ⟨2, ![256, 132]⟩
abbrev S1024x132 : Shape := ⟨2, ![1024, 132]⟩
abbrev S132x128 : Shape := ⟨2, ![132, 128]⟩

abbrev nBuf : Space → Nat
  | .hbm => 21
  | .vmem => 18
  | .smem => 0
  | _ => 0

abbrev bufTy : (tb : Table) → Fin (tcTables nBuf tb) → BufTy
  | .hbm, ⟨0, _⟩ => ⟨S65536x128, .f32⟩
  | .hbm, ⟨1, _⟩ => ⟨S8x65536x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S132x256, .f32⟩
  | .hbm, ⟨7, _⟩ => ⟨S132, .f32⟩
  | .hbm, ⟨8, _⟩ => ⟨S132x132, .f32⟩
  | .hbm, ⟨9, _⟩ => ⟨S132, .f32⟩
  | .hbm, ⟨10, _⟩ => ⟨S132x132, .f32⟩
  | .hbm, ⟨11, _⟩ => ⟨S132, .f32⟩
  | .hbm, ⟨12, _⟩ => ⟨S128x132, .f32⟩
  | .hbm, ⟨13, _⟩ => ⟨S128, .f32⟩
  | .hbm, ⟨14, _⟩ => ⟨S1x128, .f32⟩
  | .hbm, ⟨15, _⟩ => ⟨S1x128, .f32⟩
  | .hbm, ⟨16, _⟩ => ⟨S1x132, .f32⟩
  | .hbm, ⟨17, _⟩ => ⟨S1x132, .f32⟩
  | .hbm, ⟨18, _⟩ => ⟨S1x132, .f32⟩
  | .hbm, ⟨19, _⟩ => ⟨S1x128, .f32⟩
  | .hbm, ⟨20, _⟩ => ⟨S65536x128, .f32⟩
  | .local _ .vmem, ⟨0, _⟩ => ⟨S8x1024x128, .f32⟩
  | .local _ .vmem, ⟨1, _⟩ => ⟨S8x1024x128, .f32⟩
  | .local _ .vmem, ⟨2, _⟩ => ⟨S1024x128, .f32⟩
  | .local _ .vmem, ⟨3, _⟩ => ⟨S1024x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S132x256, .f32⟩
  | .local _ .vmem, ⟨9, _⟩ => ⟨S1x132, .f32⟩
  | .local _ .vmem, ⟨10, _⟩ => ⟨S132x132, .f32⟩
  | .local _ .vmem, ⟨11, _⟩ => ⟨S1x132, .f32⟩
  | .local _ .vmem, ⟨12, _⟩ => ⟨S132x132, .f32⟩
  | .local _ .vmem, ⟨13, _⟩ => ⟨S1x132, .f32⟩
  | .local _ .vmem, ⟨14, _⟩ => ⟨S128x132, .f32⟩
  | .local _ .vmem, ⟨15, _⟩ => ⟨S1x128, .f32⟩
  | .local _ .vmem, ⟨16, _⟩ => ⟨S1024x128, .f32⟩
  | .local _ .vmem, ⟨17, _⟩ => ⟨S1024x128, .f32⟩
  | _, _ => ⟨S65536x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg14_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem14_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S132x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x132 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S132x132 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x132 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S132x132 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x132 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x132 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1024x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  shapeCasts_S128_S1x128 : S128.ShapeCasts S1x128
  shapeCasts_S132_S1x132 : S132.ShapeCasts S1x132
  inb_S8x1024x128_S8x1024x128_0_0_0 : ∀ a, (![0, 0, 0] : Fin 3 → Nat) a + S8x1024x128.size a ≤ S8x1024x128.size a
  h_S8x1024x128 : 0 < S8x1024x128.numel
  reduces_S8x1024x128_S1024x128 : S8x1024x128.Reduces [0] S1024x128
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  transposes_S128x128_p1_0_S128x128 : S128x128.Transposes [1, 0] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  inb_S1024x128_S1024x128_0_0 : ∀ a, (![0, 0] : Fin 2 → Nat) a + S1024x128.size a ≤ S1024x128.size a
  h_S1024x128 : 0 < S1024x128.numel
  concatenates_S1024x128_S1024x128_S1024x256_d1 : Shape.Concatenates [S1024x128, S1024x128] S1024x256 1
  inb_S132x256_S132x256_0_0 : ∀ a, (![0, 0] : Fin 2 → Nat) a + S132x256.size a ≤ S132x256.size a
  h_S132x256 : 0 < S132x256.numel
  transposes_S132x256_p1_0_S256x132 : S132x256.Transposes [1, 0] S256x132
  inb_S1x132_S1x132_0_0 : ∀ a, (![0, 0] : Fin 2 → Nat) a + S1x132.size a ≤ S1x132.size a
  h_S1x132 : 0 < S1x132.numel
  shapeCasts_S1x132_S1x132 : S1x132.ShapeCasts S1x132
  broadcasts_S1x132_S1024x132 : S1x132.Broadcasts S1024x132
  inb_S132x132_S132x132_0_0 : ∀ a, (![0, 0] : Fin 2 → Nat) a + S132x132.size a ≤ S132x132.size a
  h_S132x132 : 0 < S132x132.numel
  transposes_S132x132_p1_0_S132x132 : S132x132.Transposes [1, 0] S132x132
  inb_S128x132_S128x132_0_0 : ∀ a, (![0, 0] : Fin 2 → Nat) a + S128x132.size a ≤ S128x132.size a
  h_S128x132 : 0 < S128x132.numel
  transposes_S128x132_p1_0_S132x128 : S128x132.Transposes [1, 0] S132x128
  dot_S1024x128_S128x128_S1024x128_1_0_0_1_n_n_wf : DotDims.WF S1024x128 S128x128 S1024x128 [1] [0] [0] [1] [] []
  dot_S1024x256_S256x132_S1024x132_1_0_0_1_n_n_wf : DotDims.WF S1024x256 S256x132 S1024x132 [1] [0] [0] [1] [] []
  dot_S1024x132_S132x132_S1024x132_1_0_0_1_n_n_wf : DotDims.WF S1024x132 S132x132 S1024x132 [1] [0] [0] [1] [] []
  dot_S1024x132_S132x128_S1024x128_1_0_0_1_n_n_wf : DotDims.WF S1024x132 S132x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x1024x128.size a ≤ S8x65536x128.size a
  hwx0_0 : ∀ i : grid0.Coords, EltTy.bits .f32 = 32 ∨ (Rect.block (s := S8x65536x128) S8x1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S65536x128.size a
  hwx0_1 : ∀ i : grid0.Coords, EltTy.bits .f32 = 32 ∨ (Rect.block (s := S65536x128) S1024x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S132x256.size a ≤ S132x256.size a
  hwx0_6 : ∀ i : grid0.Coords, EltTy.bits .f32 = 32 ∨ (Rect.block (s := S132x256) S132x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x132.size a ≤ S1x132.size a
  hwx0_7 : ∀ i : grid0.Coords, EltTy.bits .f32 = 32 ∨ (Rect.block (s := S1x132) S1x132.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S132x132.size a ≤ S132x132.size a
  hwx0_8 : ∀ i : grid0.Coords, EltTy.bits .f32 = 32 ∨ (Rect.block (s := S132x132) S132x132.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x132.size a ≤ S1x132.size a
  hwx0_9 : ∀ i : grid0.Coords, EltTy.bits .f32 = 32 ∨ (Rect.block (s := S1x132) S1x132.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S132x132.size a ≤ S132x132.size a
  hwx0_10 : ∀ i : grid0.Coords, EltTy.bits .f32 = 32 ∨ (Rect.block (s := S132x132) S132x132.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x132.size a ≤ S1x132.size a
  hwx0_11 : ∀ i : grid0.Coords, EltTy.bits .f32 = 32 ∨ (Rect.block (s := S1x132) S1x132.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128x132.size a ≤ S128x132.size a
  hwx0_12 : ∀ i : grid0.Coords, EltTy.bits .f32 = 32 ∨ (Rect.block (s := S128x132) S128x132.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x128.size a ≤ S1x128.size a
  hwx0_13 : ∀ i : grid0.Coords, EltTy.bits .f32 = 32 ∨ (Rect.block (s := S1x128) S1x128.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1024x128.size a ≤ S65536x128.size a
  hwx0_14 : ∀ i : grid0.Coords, EltTy.bits .f32 = 32 ∨ (Rect.block (s := S65536x128) S1024x128.size (cc0_transform_14 i) (hinb0_14 i)).WholeWords (EltTy.packing .f32)

variable [Facts₀]

def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x256_S256x132_S1024x132_1_0_0_1_n_n : DotDims S1024x256 S256x132 S1024x132 where
  lhsContracting := [1]
  rhsContracting := [0]
  lhsNonContracting := [0]
  rhsNonContracting := [1]
  lhsBatch := []
  rhsBatch := []
  wf := dot_S1024x256_S256x132_S1024x132_1_0_0_1_n_n_wf
def dot_S1024x132_S132x132_S1024x132_1_0_0_1_n_n : DotDims S1024x132 S132x132 S1024x132 where
  lhsContracting := [1]
  rhsContracting := [0]
  lhsNonContracting := [0]
  rhsNonContracting := [1]
  lhsBatch := []
  rhsBatch := []
  wf := dot_S1024x132_S132x132_S1024x132_1_0_0_1_n_n_wf
def dot_S1024x132_S132x128_S1024x128_1_0_0_1_n_n : DotDims S1024x132 S132x128 S1024x128 where
  lhsContracting := [1]
  rhsContracting := [0]
  lhsNonContracting := [0]
  rhsNonContracting := [1]
  lhsBatch := []
  rhsBatch := []
  wf := dot_S1024x132_S132x128_S1024x128_1_0_0_1_n_n_wf

abbrev win0_0 : Pipeline.Window sig grid0 :=
  Pipeline.Window.ofSpec (Memref.whole main_arg1) S8x1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S132x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1x132.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S132x132.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v3) S1x132.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S132x132.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v4) S1x132.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S128x132.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v5) S1x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v6) S1024x128.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S65536x128 : Shape := ⟨2, ![65536, 128]⟩
abbrev S8x65536x128 : Shape := ⟨3, ![8, 65536, 128]⟩
abbrev S128x128 : Shape := ⟨2, ![128, 128]⟩
abbrev S128 : Shape := ⟨1, ![128]⟩
abbrev S132x256 : Shape := ⟨2, ![132, 256]⟩
abbrev S132 : Shape := ⟨1, ![132]⟩
abbrev S132x132 : Shape := ⟨2, ![132, 132]⟩
abbrev S128x132 : Shape := ⟨2, ![128, 132]⟩
abbrev S1x1x128 : Shape := ⟨3, ![1, 1, 128]⟩
abbrev S_ : Shape := ⟨0, ![]⟩
abbrev S1x128 : Shape := ⟨2, ![1, 128]⟩
abbrev S65536x256 : Shape := ⟨2, ![65536, 256]⟩
abbrev S256x132 : Shape := ⟨2, ![256, 132]⟩
abbrev S65536x132 : Shape := ⟨2, ![65536, 132]⟩
abbrev S1x132 : Shape := ⟨2, ![1, 132]⟩
abbrev S132x128 : Shape := ⟨2, ![132, 128]⟩

abbrev nBuf : Space → Nat
  | .hbm => 55
  | .vmem => 0
  | .smem => 0
  | _ => 0

abbrev bufTy : (tb : Table) → Fin (tcTables nBuf tb) → BufTy
  | .hbm, ⟨0, _⟩ => ⟨S65536x128, .f32⟩
  | .hbm, ⟨1, _⟩ => ⟨S8x65536x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S132x256, .f32⟩
  | .hbm, ⟨7, _⟩ => ⟨S132, .f32⟩
  | .hbm, ⟨8, _⟩ => ⟨S132x132, .f32⟩
  | .hbm, ⟨9, _⟩ => ⟨S132, .f32⟩
  | .hbm, ⟨10, _⟩ => ⟨S132x132, .f32⟩
  | .hbm, ⟨11, _⟩ => ⟨S132, .f32⟩
  | .hbm, ⟨12, _⟩ => ⟨S128x132, .f32⟩
  | .hbm, ⟨13, _⟩ => ⟨S128, .f32⟩
  | .hbm, ⟨14, _⟩ => ⟨S8x65536x128, .f32⟩
  | .hbm, ⟨15, _⟩ => ⟨S1x1x128, .f32⟩
  | .hbm, ⟨16, _⟩ => ⟨S8x65536x128, .f32⟩
  | .hbm, ⟨17, _⟩ => ⟨S8x65536x128, .f32⟩
  | .hbm, ⟨18, _⟩ => ⟨S_, .f32⟩
  | .hbm, ⟨19, _⟩ => ⟨S65536x128, .f32⟩
  | .hbm, ⟨20, _⟩ => ⟨S128x128, .f32⟩
  | .hbm, ⟨21, _⟩ => ⟨S65536x128, .f32⟩
  | .hbm, ⟨22, _⟩ => ⟨S1x128, .f32⟩
  | .hbm, ⟨23, _⟩ => ⟨S65536x128, .f32⟩
  | .hbm, ⟨24, _⟩ => ⟨S65536x128, .f32⟩
  | .hbm, ⟨25, _⟩ => ⟨S65536x256, .f32⟩
  | .hbm, ⟨26, _⟩ => ⟨S256x132, .f32⟩
  | .hbm, ⟨27, _⟩ => ⟨S65536x132, .f32⟩
  | .hbm, ⟨28, _⟩ => ⟨S1x132, .f32⟩
  | .hbm, ⟨29, _⟩ => ⟨S65536x132, .f32⟩
  | .hbm, ⟨30, _⟩ => ⟨S65536x132, .f32⟩
  | .hbm, ⟨31, _⟩ => ⟨S_, .f32⟩
  | .hbm, ⟨32, _⟩ => ⟨S65536x132, .f32⟩
  | .hbm, ⟨33, _⟩ => ⟨S65536x132, .f32⟩
  | .hbm, ⟨34, _⟩ => ⟨S132x132, .f32⟩
  | .hbm, ⟨35, _⟩ => ⟨S65536x132, .f32⟩
  | .hbm, ⟨36, _⟩ => ⟨S1x132, .f32⟩
  | .hbm, ⟨37, _⟩ => ⟨S65536x132, .f32⟩
  | .hbm, ⟨38, _⟩ => ⟨S65536x132, .f32⟩
  | .hbm, ⟨39, _⟩ => ⟨S_, .f32⟩
  | .hbm, ⟨40, _⟩ => ⟨S65536x132, .f32⟩
  | .hbm, ⟨41, _⟩ => ⟨S65536x132, .f32⟩
  | .hbm, ⟨42, _⟩ => ⟨S132x132, .f32⟩
  | .hbm, ⟨43, _⟩ => ⟨S65536x132, .f32⟩
  | .hbm, ⟨44, _⟩ => ⟨S1x132, .f32⟩
  | .hbm, ⟨45, _⟩ => ⟨S65536x132, .f32⟩
  | .hbm, ⟨46, _⟩ => ⟨S65536x132, .f32⟩
  | .hbm, ⟨47, _⟩ => ⟨S_, .f32⟩
  | .hbm, ⟨48, _⟩ => ⟨S65536x132, .f32⟩
  | .hbm, ⟨49, _⟩ => ⟨S65536x132, .f32⟩
  | .hbm, ⟨50, _⟩ => ⟨S132x128, .f32⟩
  | .hbm, ⟨51, _⟩ => ⟨S65536x128, .f32⟩
  | .hbm, ⟨52, _⟩ => ⟨S1x128, .f32⟩
  | .hbm, ⟨53, _⟩ => ⟨S65536x128, .f32⟩
  | .hbm, ⟨54, _⟩ => ⟨S65536x128, .f32⟩
  | _, _ => ⟨S65536x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_call0_cst : Ref sig .tc := ⟨.hbm, 31, rfl⟩
abbrev main_call0_v0 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_call1_cst : Ref sig .tc := ⟨.hbm, 39, rfl⟩
abbrev main_call1_v0 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_call2_cst : Ref sig .tc := ⟨.hbm, 47, rfl⟩
abbrev main_call2_v0 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S8x65536x128_0_1_2 : S1x1x128.BroadcastsInDim S8x65536x128 (![0, 1, 2] : Fin 3 → Fin S8x65536x128.rank)
  reducesTo_S8x65536x128_S65536x128_d0 : S8x65536x128.ReducesTo [0] S65536x128
  h_S_ : 0 < S_.numel
  transposes_S128x128_S128x128_1_0 : S128x128.Transposes [1, 0] S128x128
  bcast_S128_S1x128_1 : S128.BroadcastsInDim S1x128 (![1] : Fin 1 → Fin S1x128.rank)
  bcast_S1x128_S65536x128_0_1 : S1x128.BroadcastsInDim S65536x128 (![0, 1] : Fin 2 → Fin S65536x128.rank)
  concatenates_S65536x128_S65536x128_S65536x256_d1 : Shape.Concatenates [S65536x128, S65536x128] S65536x256 1
  transposes_S132x256_S256x132_1_0 : S132x256.Transposes [1, 0] S256x132
  bcast_S132_S1x132_1 : S132.BroadcastsInDim S1x132 (![1] : Fin 1 → Fin S1x132.rank)
  bcast_S1x132_S65536x132_0_1 : S1x132.BroadcastsInDim S65536x132 (![0, 1] : Fin 2 → Fin S65536x132.rank)
  bcast_S_S65536x132 : S_.BroadcastsInDim S65536x132 (![] : Fin 0 → Fin S65536x132.rank)
  transposes_S132x132_S132x132_1_0 : S132x132.Transposes [1, 0] S132x132
  transposes_S128x132_S132x128_1_0 : S128x132.Transposes [1, 0] S132x128
  dot_S8x65536x128_S128x128_S8x65536x128_2_1_01_0_n_n_wf : DotDims.WF S8x65536x128 S128x128 S8x65536x128 [2] [1] [0, 1] [0] [] []
  dot_S65536x128_S128x128_S65536x128_1_0_0_1_n_n_wf : DotDims.WF S65536x128 S128x128 S65536x128 [1] [0] [0] [1] [] []
  dot_S65536x256_S256x132_S65536x132_1_0_0_1_n_n_wf : DotDims.WF S65536x256 S256x132 S65536x132 [1] [0] [0] [1] [] []
  dot_S65536x132_S132x132_S65536x132_1_0_0_1_n_n_wf : DotDims.WF S65536x132 S132x132 S65536x132 [1] [0] [0] [1] [] []
  dot_S65536x132_S132x128_S65536x128_1_0_0_1_n_n_wf : DotDims.WF S65536x132 S132x128 S65536x128 [1] [0] [0] [1] [] []

variable [Facts₀]

def dot_S8x65536x128_S128x128_S8x65536x128_2_1_01_0_n_n : DotDims S8x65536x128 S128x128 S8x65536x128 where
  lhsContracting := [2]
  rhsContracting := [1]
  lhsNonContracting := [0, 1]
  rhsNonContracting := [0]
  lhsBatch := []
  rhsBatch := []
  wf := dot_S8x65536x128_S128x128_S8x65536x128_2_1_01_0_n_n_wf
def dot_S65536x128_S128x128_S65536x128_1_0_0_1_n_n : DotDims S65536x128 S128x128 S65536x128 where
  lhsContracting := [1]
  rhsContracting := [0]
  lhsNonContracting := [0]
  rhsNonContracting := [1]
  lhsBatch := []
  rhsBatch := []
  wf := dot_S65536x128_S128x128_S65536x128_1_0_0_1_n_n_wf
def dot_S65536x256_S256x132_S65536x132_1_0_0_1_n_n : DotDims S65536x256 S256x132 S65536x132 where
  lhsContracting := [1]
  rhsContracting := [0]
  lhsNonContracting := [0]
  rhsNonContracting := [1]
  lhsBatch := []
  rhsBatch := []
  wf := dot_S65536x256_S256x132_S65536x132_1_0_0_1_n_n_wf
def dot_S65536x132_S132x132_S65536x132_1_0_0_1_n_n : DotDims S65536x132 S132x132 S65536x132 where
  lhsContracting := [1]
  rhsContracting := [0]
  lhsNonContracting := [0]
  rhsNonContracting := [1]
  lhsBatch := []
  rhsBatch := []
  wf := dot_S65536x132_S132x132_S65536x132_1_0_0_1_n_n_wf
def dot_S65536x132_S132x128_S65536x128_1_0_0_1_n_n : DotDims S65536x132 S132x128 S65536x128 where
  lhsContracting := [1]
  rhsContracting := [0]
  lhsNonContracting := [0]
  rhsNonContracting := [1]
  lhsBatch := []
  rhsBatch := []
  wf := dot_S65536x132_S132x128_S65536x128_1_0_0_1_n_n_wf

class Facts : Prop extends Facts₀ where

variable [Facts]
-- ==== Proof.LibDenseRows.lean ====
/-
  Dense layers of a kernel body read one entry at a time at the extended reals; nothing here names a program.

  A row map is a function of ONE row: `affine W b x` is `e ↦ (∑ j, x j · W e j) + b e` (a linear layer `x · Wᵀ + b`),
  `relu` the positive part place by place, `join` two rows of length 128 side by side.

  * `matmul_plain_apply`: a product of an [M, K] by a [K, N] value accumulated from zero, under the plain dimension
    numbers (the left operand contracted on its columns, the right on its rows), is at entry (r, c) the sum
    `∑ k, x (r, k) · y (k, c)`; `plain_lhs_row` … `plain_rhs_col` are the four coordinate facts behind it. A printed
    dimension record with these numbers equals `DotDims.plain M K N` by `rfl` (the lists agree and the
    well-formedness field is a proposition), so one lemma serves every such product.
  * `layer_apply`: that product with a TRANSPOSED [N, K] weight, plus a [1, N] bias broadcast down the rows, is at
    entry (r, e) the affine row map of row r of the left operand; `relu_layer_apply` adds the positive part and a
    change of float format (the identity on extended reals).
  * `concatenate_eq_join`, `join_apply`: two [M, 128] values concatenated along the columns, at entry (r, j), are the
    join of their rows r.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.RowMaps

open Idealize.ShloMosaic Idealize.ShloMosaic.ValueIdx

/-! ## Row maps -/

/-- A linear layer on a row: `e ↦ (∑ j, x j · W e j) + b e`. -/
def affine {n m : ℕ} (W : Fin m → Fin n → EReal) (b : Fin m → EReal) (x : Fin n → EReal) : Fin m → EReal :=
  fun e => (∑ j : Fin n, x j * W e j) + b e

/-- The positive part of a row, place by place. -/
def relu {m : ℕ} (x : Fin m → EReal) : Fin m → EReal := fun e => max (x e) 0

/-- Two rows of length 128 side by side. -/
def join (x y : Fin 128 → EReal) : Fin 256 → EReal :=
  fun j => if h : j.val < 128 then x ⟨j.val, h⟩ else y ⟨j.val - 128, by have := j.isLt; omega⟩

/-! ## A concatenation along the columns -/

/-- Two [M, 128] arrays concatenated along their columns, read at (r, j): the join of their rows r. -/
theorem concatenate_eq_join {M : ℕ} (a b : (⟨2, ![M, 128]⟩ : Shape).Idx → EReal)
    (h : Shape.Concatenates [(⟨2, ![M, 128]⟩ : Shape), ⟨2, ![M, 128]⟩] ⟨2, ![M, 256]⟩ 1) (r : Fin M) (j : Fin 256) :
    concatenate ⟨2, ![M, 256]⟩ 1 [⟨⟨2, ![M, 128]⟩, a⟩, ⟨⟨2, ![M, 128]⟩, b⟩] h (ix2 r j)
      = join (fun d => a (ix2 r d)) (fun d => b (ix2 r d)) j := by
  unfold join
  by_cases hj : j.val < 128
  · rw [dif_pos hj]
    exact concatenate_pair_apply_left 1 a b h (ix2 r j) rfl (ix2 r ⟨j.val, hj⟩)
      (fun c => match c with | ⟨0, _⟩ => rfl | ⟨1, _⟩ => rfl)
  · rw [dif_neg hj]
    exact concatenate_pair_apply_right 1 a b h (ix2 r j) rfl rfl (ix2 r ⟨j.val - 128, by have := j.isLt; omega⟩)
      (fun c hc => match c with | ⟨0, _⟩ => rfl | ⟨1, _⟩ => absurd rfl hc)
      (by show j.val - 128 + 128 = j.val; omega)

/-! ## The plain product -/

section Plain
variable (M K N : ℕ)

theorem plain_contr_rank : (DotDims.plain M K N).contr.rank = 1 := rfl
theorem plain_contr_size : (DotDims.plain M K N).contr.size ⟨0, Nat.one_pos⟩ = K := rfl
/-- The left operand is read at the output's row and the contraction coordinate, -/
theorem plain_lhs_row (j : (⟨2, ![M, N]⟩ : Shape).Idx) (q : (DotDims.plain M K N).contr.Idx) :
    ((DotDims.plain M K N).lhsIdx j q 0).val = (j 0).val := rfl
theorem plain_lhs_contr (j : (⟨2, ![M, N]⟩ : Shape).Idx) (q : (DotDims.plain M K N).contr.Idx) :
    ((DotDims.plain M K N).lhsIdx j q 1).val = (q ⟨0, Nat.one_pos⟩).val := rfl
/-- the right operand at the contraction coordinate and the output's column. -/
theorem plain_rhs_contr (j : (⟨2, ![M, N]⟩ : Shape).Idx) (q : (DotDims.plain M K N).contr.Idx) :
    ((DotDims.plain M K N).rhsIdx j q 0).val = (q ⟨0, Nat.one_pos⟩).val := rfl
theorem plain_rhs_col (j : (⟨2, ![M, N]⟩ : Shape).Idx) (q : (DotDims.plain M K N).contr.Idx) :
    ((DotDims.plain M K N).rhsIdx j q 1).val = (j 1).val := rfl

/-- Entry (r, c) of a product accumulated from zero: `∑ k, x (r, k) · y (k, c)`. -/
theorem matmul_plain_apply {φ₁ φ₂ : FTy} (x : FVec Ideal ⟨2, ![M, K]⟩ φ₁) (y : FVec Ideal ⟨2, ![K, N]⟩ φ₂) (r : Fin M) (c : Fin N) :
    matmul (DotDims.plain M K N) none x y (constant ⟨2, ![M, N]⟩ .f32 0x00000000#32) (ix2 r c)
      = ∑ k : Fin K, x (ix2 r k) * y (ix2 k c) := by
  simp only [matmul]
  rw [Ideal.matmul_constant_zero_apply,
    ← Equiv.sum_comp (contrEquiv1 (DotDims.plain M K N) K (plain_contr_rank M K N) (plain_contr_size M K N)).symm]
  refine Finset.sum_congr rfl fun k _ => ?_
  have hk := contrEquiv1_symm_val (DotDims.plain M K N) K (plain_contr_rank M K N) (plain_contr_size M K N) k
  have el : (DotDims.plain M K N).lhsIdx (ix2 r c)
      ((contrEquiv1 (DotDims.plain M K N) K (plain_contr_rank M K N) (plain_contr_size M K N)).symm k) = ix2 r k :=
    funext fun a => Fin.ext (by
      match a with
      | ⟨0, _⟩ => exact plain_lhs_row M K N _ _
      | ⟨1, _⟩ => exact (plain_lhs_contr M K N _ _).trans hk)
  have er : (DotDims.plain M K N).rhsIdx (ix2 r c)
      ((contrEquiv1 (DotDims.plain M K N) K (plain_contr_rank M K N) (plain_contr_size M K N)).symm k) = ix2 k c :=
    funext fun a => Fin.ext (by
      match a with
      | ⟨0, _⟩ => exact (plain_rhs_contr M K N _ _).trans hk
      | ⟨1, _⟩ => exact plain_rhs_col M K N _ _)
  rw [el, er]

end Plain

/-! ## One layer, at an entry -/

/-- A weight block as rows, and a [1, n] bias block as its one row. -/
abbrev rows {a b : ℕ} {φ : FTy} (W : FVec Ideal ⟨2, ![a, b]⟩ φ) : Fin a → Fin b → EReal := fun e j => W (ix2 e j)
abbrev row0 {b : ℕ} {φ : FTy} (v : FVec Ideal ⟨2, ![1, b]⟩ φ) : Fin b → EReal := fun e => v (ix2 (0 : Fin 1) e)

/-- `x · Wᵀ + b` at entry (r, e) is the affine row map of row r of `x`. -/
theorem layer_apply {M K N : ℕ} {φ₁ φ₂ : FTy} (x : FVec Ideal ⟨2, ![M, K]⟩ φ₁) (W : FVec Ideal ⟨2, ![N, K]⟩ φ₂)
    (b : FVec Ideal ⟨2, ![1, N]⟩ .f32) (hT : (⟨2, ![N, K]⟩ : Shape).Transposes [1, 0] ⟨2, ![K, N]⟩)
    (hS : (⟨2, ![1, N]⟩ : Shape).ShapeCasts ⟨2, ![1, N]⟩) (hB : (⟨2, ![1, N]⟩ : Shape).Broadcasts ⟨2, ![M, N]⟩)
    (r : Fin M) (e : Fin N) :
    addf (matmul (DotDims.plain M K N) none x (transpose ⟨2, ![K, N]⟩ [1, 0] W hT) (constant ⟨2, ![M, N]⟩ .f32 0x00000000#32))
        (broadcastTo ⟨2, ![M, N]⟩ (shapeCast ⟨2, ![1, N]⟩ b hS) hB) (ix2 r e)
      = affine (rows W) (row0 b) (fun j => x (ix2 r j)) e := by
  rw [addf_apply, matmul_plain_apply, broadcastTo_1b_ab_apply, shapeCast_self]
  unfold affine
  refine congrArg (· + b (ix2 (0 : Fin 1) e)) (Finset.sum_congr rfl fun k _ => ?_)
  rw [transpose_ix2_apply]

/-- The same followed by the positive part (and a change of format, the identity here). -/
theorem relu_layer_apply {M K N : ℕ} {φ₁ φ₂ : FTy} (x : FVec Ideal ⟨2, ![M, K]⟩ φ₁) (W : FVec Ideal ⟨2, ![N, K]⟩ φ₂)
    (b : FVec Ideal ⟨2, ![1, N]⟩ .f32) (hT : (⟨2, ![N, K]⟩ : Shape).Transposes [1, 0] ⟨2, ![K, N]⟩)
    (hS : (⟨2, ![1, N]⟩ : Shape).ShapeCasts ⟨2, ![1, N]⟩) (hB : (⟨2, ![1, N]⟩ : Shape).Broadcasts ⟨2, ![M, N]⟩)
    (hbits : FTy.bits .bf16 < FTy.bits .f32) (r : Fin M) (e : Fin N) :
    truncf .bf16 (maximumf (addf (matmul (DotDims.plain M K N) none x (transpose ⟨2, ![K, N]⟩ [1, 0] W hT) (constant ⟨2, ![M, N]⟩ .f32 0x00000000#32))
        (broadcastTo ⟨2, ![M, N]⟩ (shapeCast ⟨2, ![1, N]⟩ b hS) hB))
        (broadcast ⟨2, ![M, N]⟩ (Scalar.ofBits (F := Ideal) .f32 0x00000000#32))) hbits (ix2 r e)
      = relu (affine (rows W) (row0 b) (fun j => x (ix2 r j))) e := by
  rw [truncf_apply, maximumf_apply, broadcast_apply, layer_apply]
  unfold relu
  exact congrArg (max _) Ideal.ofBits_zero_f32

/-- Two [M, 128] values side by side, at entry (r, j). -/
theorem join_apply {M : ℕ} (a b : FVec Ideal ⟨2, ![M, 128]⟩ .f32)
    (h : Shape.Concatenates [(⟨2, ![M, 128]⟩ : Shape), ⟨2, ![M, 128]⟩] ⟨2, ![M, 256]⟩ 1)
    (hbits : FTy.bits .bf16 < FTy.bits .f32) (r : Fin M) (j : Fin 256) :
    truncf .bf16 (concatenate ⟨2, ![M, 256]⟩ 1 [⟨⟨2, ![M, 128]⟩, a⟩, ⟨⟨2, ![M, 128]⟩, b⟩] h) hbits (ix2 r j)
      = join (fun d => a (ix2 r d)) (fun d => b (ix2 r d)) j := by
  rw [truncf_apply]
  exact concatenate_eq_join a b h r j

end Cert.RowMaps

end
-- ==== Proof.RowMaps.lean ====
/-
  The mathematics of the certificate, with no program in sight: every output row depends on ONE row of the
  signal and of each of the eight components, so the whole computation is a map on rows.

  * the layers are the row maps of the dense-layer module this one imports: `affine W b x`, the row
    `e ↦ (∑ j, x j · W e j) + b e` (a linear layer `x · Wᵀ + b`); `relu x`, `e ↦ max (x e) 0`; `join x y`, the row of
    length 256 that is `x` on its first 128 places and `y` on the rest;
  * the MESSAGE is taken in two arrangements. `messageSumFirst` adds the eight component rows and then applies the
    linear map once, adding eight times the bias: `e ↦ (∑ d, (∑ k, c k d) · W e d) + 8 · b e`. `messageMapFirst`
    applies the layer to each component row and then adds the eight results: `e ↦ 0 + ∑ k, ((∑ d, c k d · W e d) + b e)`.
  * `update` is what follows the message on both sides: one affine layer, the join with the signal row, three
    affine layers each followed by `relu`, and a last affine layer.

  The two arrangements of the message agree when every entry is a real number (`message_eq`): the product
  distributes over the sum of eight reals, the two finite sums are exchanged, and a constant added eight times is eight
  times the constant. On the extended reals this needs the entries finite (distributivity fails at the infinities).

  Last, the whole result array as ONE function of the argument arrays (`wholeResult`), in either arrangement of the
  message.
-/
import proofs.«155570_j51376398795078_1_alg».proof.Proof.LibDenseRows

noncomputable section

namespace Cert.RowMaps

/-- The message with the component rows added FIRST: one linear map of the sum, and eight times the bias. -/
def messageSumFirst (c : Fin 8 → Fin 128 → EReal) (W : Fin 128 → Fin 128 → EReal) (b : Fin 128 → EReal) : Fin 128 → EReal :=
  fun e => (∑ d : Fin 128, (∑ k : Fin 8, c k d) * W e d) + ((8 : ℝ) : EReal) * b e

/-- The message with the layer applied to each component row FIRST, the eight results added from zero. -/
def messageMapFirst (c : Fin 8 → Fin 128 → EReal) (W : Fin 128 → Fin 128 → EReal) (b : Fin 128 → EReal) : Fin 128 → EReal :=
  fun e => 0 + ∑ k : Fin 8, ((∑ d : Fin 128, c k d * W e d) + b e)

/-- What both programs do with a signal row and a message row. -/
def update (sig msg : Fin 128 → EReal)
    (Wu : Fin 128 → Fin 128 → EReal) (bu : Fin 128 → EReal) (W0 : Fin 132 → Fin 256 → EReal) (b0 : Fin 132 → EReal)
    (W1 : Fin 132 → Fin 132 → EReal) (b1 : Fin 132 → EReal) (W2 : Fin 132 → Fin 132 → EReal) (b2 : Fin 132 → EReal)
    (W3 : Fin 128 → Fin 132 → EReal) (b3 : Fin 128 → EReal) : Fin 128 → EReal :=
  affine W3 b3 (relu (affine W2 b2 (relu (affine W1 b1 (relu (affine W0 b0 (join sig (affine Wu bu msg))))))))

/-- A finite sum of reals, each read as an extended real, is the sum read as an extended real. -/
theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- On REAL entries the two arrangements of the message are one row: distributivity over the eight summands, the two
    sums exchanged, the bias counted eight times. -/
theorem message_eq (c : Fin 8 → Fin 128 → EReal) (W : Fin 128 → Fin 128 → EReal) (b : Fin 128 → EReal)
    (hc : ∀ k d, ∃ r : ℝ, c k d = (r : EReal)) (hW : ∀ e d, ∃ r : ℝ, W e d = (r : EReal))
    (hb : ∀ e, ∃ r : ℝ, b e = (r : EReal)) :
    messageSumFirst c W b = messageMapFirst c W b := by
  choose c' hc' using hc
  choose W' hW' using hW
  choose b' hb' using hb
  funext e
  unfold messageSumFirst messageMapFirst
  simp only [hc', hW', hb', coe_sum, ← EReal.coe_mul, ← EReal.coe_add, ← EReal.coe_zero]
  congr 1
  rw [zero_add, Finset.sum_add_distrib, Finset.sum_const, Finset.card_univ, Fintype.card_fin, nsmul_eq_mul,
    Nat.cast_ofNat, Finset.sum_comm]
  congr 1
  exact Finset.sum_congr rfl fun d _ => Finset.sum_mul _ _ _

/-! ## The whole result array -/

open Idealize.ShloMosaic Idealize.ShloMosaic.ValueIdx

/-- The result array as ONE function of the argument arrays: entry (i₀, i₁) is place i₁ of `update` of row i₀ of the
    signal and of the message of row i₀ of the eight components, the message taken in the arrangement `msg`. The
    biases are given as rows. -/
def wholeResult
    (msg : (Fin 8 → Fin 128 → EReal) → (Fin 128 → Fin 128 → EReal) → (Fin 128 → EReal) → Fin 128 → EReal)
    (sig : (⟨2, ![65536, 128]⟩ : Shape).Idx → EReal) (comp : (⟨3, ![8, 65536, 128]⟩ : Shape).Idx → EReal)
    (Wm : (⟨2, ![128, 128]⟩ : Shape).Idx → EReal) (bm : Fin 128 → EReal)
    (Wu : (⟨2, ![128, 128]⟩ : Shape).Idx → EReal) (bu : Fin 128 → EReal)
    (W0 : (⟨2, ![132, 256]⟩ : Shape).Idx → EReal) (b0 : Fin 132 → EReal)
    (W1 : (⟨2, ![132, 132]⟩ : Shape).Idx → EReal) (b1 : Fin 132 → EReal)
    (W2 : (⟨2, ![132, 132]⟩ : Shape).Idx → EReal) (b2 : Fin 132 → EReal)
    (W3 : (⟨2, ![128, 132]⟩ : Shape).Idx → EReal) (b3 : Fin 128 → EReal) :
    (⟨2, ![65536, 128]⟩ : Shape).Idx → EReal :=
  fun i => update (fun j => sig (ix2 (i 0) j))
    (msg (fun k d => comp (ix3 k (i 0) d)) (fun e d => Wm (ix2 e d)) bm)
    (fun e d => Wu (ix2 e d)) bu (fun e d => W0 (ix2 e d)) b0 (fun e d => W1 (ix2 e d)) b1
    (fun e d => W2 (ix2 e d)) b2 (fun e d => W3 (ix2 e d)) b3 (i 1)

/-- With real components, message weights and message bias, the two arrangements give one array. -/
theorem wholeResult_arrangements
    (sig : (⟨2, ![65536, 128]⟩ : Shape).Idx → EReal) (comp : (⟨3, ![8, 65536, 128]⟩ : Shape).Idx → EReal)
    (Wm : (⟨2, ![128, 128]⟩ : Shape).Idx → EReal) (bm : Fin 128 → EReal)
    (Wu : (⟨2, ![128, 128]⟩ : Shape).Idx → EReal) (bu : Fin 128 → EReal)
    (W0 : (⟨2, ![132, 256]⟩ : Shape).Idx → EReal) (b0 : Fin 132 → EReal)
    (W1 : (⟨2, ![132, 132]⟩ : Shape).Idx → EReal) (b1 : Fin 132 → EReal)
    (W2 : (⟨2, ![132, 132]⟩ : Shape).Idx → EReal) (b2 : Fin 132 → EReal)
    (W3 : (⟨2, ![128, 132]⟩ : Shape).Idx → EReal) (b3 : Fin 128 → EReal)
    (hcomp : ∀ i, ∃ r : ℝ, comp i = (r : EReal)) (hWm : ∀ i, ∃ r : ℝ, Wm i = (r : EReal))
    (hbm : ∀ e, ∃ r : ℝ, bm e = (r : EReal)) :
    wholeResult messageSumFirst sig comp Wm bm Wu bu W0 b0 W1 b1 W2 b2 W3 b3
      = wholeResult messageMapFirst sig comp Wm bm Wu bu W0 b0 W1 b1 W2 b2 W3 b3 := by
  funext i
  unfold wholeResult
  rw [message_eq _ _ _ (fun k d => hcomp _) (fun e d => hWm _) hbm]

end Cert.RowMaps

end
-- ==== Proof.KernelRow.lean ====
/-
  The kernel's body, read at the extended reals one entry at a time. The body loads the blocks of its fourteen
  inputs whole and stores one [1024, 128] value; entry (r, e) of that value depends on row r of the component and
  signal blocks only, and is the row map `RowMaps.update` of the signal row and of the message in its
  sum-first arrangement.

  A `tpu.matmul` into the zero accumulator is, entry by entry, the sum over the contracted axis of the products
  (`RowMaps.matmul_plain_apply`: the four printed dimension records are the plain rows-by-columns product, `dot_*`
  below); the right operand is always a transposed weight block, so the sum runs over a ROW of the weight
  (`RowMaps.layer_apply`); the bias, a [1, n] block, is broadcast down the rows; a change of float format is the
  identity on extended reals. What is particular to this kernel is its first stage (`message_apply`): the eight
  component blocks summed along their leading axis, and the bias scaled by the literal eight.
-/
import proofs.«155570_j51376398795078_1_alg».proof.Proof.Gen.KernelIdeal.Frame
import proofs.«155570_j51376398795078_1_alg».proof.Proof.RowMaps
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Row

open Idealize.ShloMosaic Idealize.ShloMosaic.ValueIdx Cert.KernelIdeal Cert.KernelIdeal.Gen Cert.RowMaps

/-- The printed dimension records are plain products. -/
theorem dot_128_128 : dot_S1024x128_S128x128_S1024x128_1_0_0_1_n_n = DotDims.plain 1024 128 128 := rfl
theorem dot_256_132 : dot_S1024x256_S256x132_S1024x132_1_0_0_1_n_n = DotDims.plain 1024 256 132 := rfl
theorem dot_132_132 : dot_S1024x132_S132x132_S1024x132_1_0_0_1_n_n = DotDims.plain 1024 132 132 := rfl
theorem dot_132_128 : dot_S1024x132_S132x128_S1024x128_1_0_0_1_n_n = DotDims.plain 1024 132 128 := rfl

/-- The word `0x41000000` is the real number eight. -/
theorem eight : Ideal.ofBits .f32 0x41000000#32 = ((8 : ℝ) : EReal) := by
  simp [Ideal.ofBits, Ideal.ieee, -EReal.coe_mul]; norm_num

/-- The message stage: the eight component blocks added along their leading axis, one product with the transposed
    weight, and eight times the bias row; at entry (r, e), the sum-first message of row r of the components. -/
theorem message_apply (x0 : FVec Ideal S8x1024x128 .f32) (W : FVec Ideal S128x128 .bf16) (b : FVec Ideal S1x128 .f32)
    (hR : S8x1024x128.Reduces [0] S1024x128) (hbits : FTy.bits .bf16 < FTy.bits .f32)
    (hT : S128x128.Transposes [1, 0] S128x128) (hS : S1x128.ShapeCasts S1x128) (hB : S1x128.Broadcasts S1024x128)
    (r : Fin 1024) (e : Fin 128) :
    truncf .bf16 (addf (matmul (DotDims.plain 1024 128 128) none
          (truncf .bf16 (multiReduction .add [0] S1024x128 x0 0x00000000#32 hR (.inl rfl) rfl) hbits)
          (transpose S128x128 [1, 0] W hT) (constant S1024x128 .f32 0x00000000#32))
        (broadcastTo S1024x128 (mulf (broadcast S1x128 (Scalar.ofBits (F := Ideal) .f32 0x41000000#32)) (shapeCast S1x128 b hS)) hB))
        hbits (ix2 r e)
      = messageSumFirst (fun k d => x0 (ix3 k r d)) (rows W) (row0 b) e := by
  refine (truncf_apply (ψ := .bf16) (φ := .f32) _ hbits (ix2 r e)).trans ?_
  rw [addf_apply, matmul_plain_apply, broadcastTo_1b_ab_apply, mulf_apply, broadcast_apply, shapeCast_self]
  unfold messageSumFirst
  refine congrArg₂ (· + ·) (Finset.sum_congr rfl fun d _ => ?_) (congrArg (· * b (ix2 (0 : Fin 1) e)) eight)
  rw [transpose_ix2_apply, truncf_apply]
  refine congrArg (· * W (ix2 e d)) ?_
  refine (Ideal.multiReduction_add_single x0 0x00000000#32 hR (.inl rfl) rfl (ix2 r d)).trans ?_
  exact Finset.sum_congr rfl fun k _ => congrArg x0
    (funext fun a => Fin.ext (by match a with | ⟨0, _⟩ => rfl | ⟨1, _⟩ => rfl | ⟨2, _⟩ => rfl))

/-! ## The stored value -/

theorem hz2 : (![0, 0] : Fin 2 → Nat) = fun _ => 0 := funext fun a => by fin_cases a <;> rfl
theorem hz3 : (![0, 0, 0] : Fin 3 → Nat) = fun _ => 0 := funext fun a => by fin_cases a <;> rfl

/-- Entry (r, e) of what the body stores, from its input blocks: the row map of row r of the signal block and of
    the message of row r of the component blocks, through the weight blocks' rows and the bias blocks' one row. -/
theorem out_row (x0 : Vec Ideal S8x1024x128 .f32) (x1 : Vec Ideal S1024x128 .f32) (x2 : Vec Ideal S128x128 .f32)
    (x3 : Vec Ideal S1x128 .f32) (x4 : Vec Ideal S128x128 .f32) (x5 : Vec Ideal S1x128 .f32) (x6 : Vec Ideal S132x256 .f32)
    (x7 : Vec Ideal S1x132 .f32) (x8 : Vec Ideal S132x132 .f32) (x9 : Vec Ideal S1x132 .f32) (x10 : Vec Ideal S132x132 .f32)
    (x11 : Vec Ideal S1x132 .f32) (x12 : Vec Ideal S128x132 .f32) (x13 : Vec Ideal S1x128 .f32) (r : Fin 1024) (e : Fin 128) :
    out0_14 (F := Ideal) x0 x1 x2 x3 x4 x5 x6 x7 x8 x9 x10 x11 x12 x13 (ix2 r e)
      = update (fun j => x1 (ix2 r j))
          (messageSumFirst (fun k d => x0 (ix3 k r d)) (rows (φ := .f32) x2) (row0 (φ := .f32) x3))
          (rows (φ := .f32) x4) (row0 (φ := .f32) x5) (rows (φ := .f32) x6) (row0 (φ := .f32) x7)
          (rows (φ := .f32) x8) (row0 (φ := .f32) x9) (rows (φ := .f32) x10) (row0 (φ := .f32) x11)
          (rows (φ := .f32) x12) (row0 (φ := .f32) x13) e := by
  unfold out0_14
  rw [View.canon_unit_zero hz2]
  simp only [View.ld_unit_zero (S := S8x1024x128) hz3, View.ld_unit_zero (S := S1024x128) hz2,
    View.ld_unit_zero (S := S128x128) hz2, View.ld_unit_zero (S := S1x128) hz2, View.ld_unit_zero (S := S132x256) hz2,
    View.ld_unit_zero (S := S1x132) hz2, View.ld_unit_zero (S := S132x132) hz2, View.ld_unit_zero (S := S128x132) hz2]
  unfold k0_pay1 k0_pay2
  dsimp only
  rw [dot_128_128, dot_256_132, dot_132_132, dot_132_128]
  unfold update
  refine (layer_apply _ _ _ _ _ _ r e).trans ?_
  refine congrArg (fun z => affine _ _ z e) (funext fun j2 => ?_)
  refine (relu_layer_apply _ _ _ _ _ _ _ r j2).trans ?_
  refine congrArg (fun z => relu (affine _ _ z) j2) (funext fun j1 => ?_)
  refine (relu_layer_apply _ _ _ _ _ _ _ r j1).trans ?_
  refine congrArg (fun z => relu (affine _ _ z) j1) (funext fun j0 => ?_)
  refine (relu_layer_apply _ _ _ _ _ _ _ r j0).trans ?_
  refine congrArg (fun z => relu (affine _ _ z) j0) (funext fun jc => ?_)
  refine (join_apply _ _ _ _ r jc).trans ?_
  refine congrArg (fun z => join _ z jc) (funext fun d => ?_)
  refine (layer_apply _ _ _ _ _ _ r d).trans ?_
  refine congrArg (fun z => affine _ _ z d) (funext fun d' => ?_)
  exact message_apply _ _ _ _ _ _ _ _ r d'

end Cert.KernelIdeal.Row

end
-- ==== Proof.KernelArray.lean ====
/-
  From blocks to the array. Grid point t stages rows 1024·t … 1024·t + 1023 of the signal and of each of the eight
  components, and every weight and bias array whole; it writes back rows 1024·t … of the result. Since entry (r, e) of
  what the body stores is the row map of row r of its signal and component blocks (`Row.out_row`), what point t writes
  back is block t of ONE function of the whole arrays, `RowMaps.wholeResult` in the sum-first arrangement; the 64
  blocks tile the 65536 rows (row i₀ is in block i₀ / 1024), so after the run the result array IS that function.
  The six bias arrays reach the kernel reshaped from [n] to [1, n] by the host; their one row is the argument.
-/
import proofs.«155570_j51376398795078_1_alg».proof.Proof.Gen.KernelIdeal.Value
import proofs.«155570_j51376398795078_1_alg».proof.Proof.KernelRow
import Idealize.ShloMosaic.Lib.StableHlo.Run

set_option maxRecDepth 16384

noncomputable section

namespace Cert.KernelIdeal.Whole

open Idealize.ShloMosaic Idealize.ShloMosaic.TcCoe Idealize.ShloMosaic.ValueIdx Idealize.SL.Sem
open Cert.KernelIdeal Cert.KernelIdeal.Gen Cert.RowMaps Cert.KernelIdeal.Row
open Idealize.ShloMosaic.Pipeline (Dat)

/-! ## One point, over plain blocks and arrays -/

/-- If row `p` of the signal and component blocks is row `i 0` of the arrays, the weight blocks are the weight arrays,
    the bias blocks' one row is the bias row, and `i` has column `q`, then what the body stores at `(p, q)` is the
    whole-array function at `i`. -/
theorem point (x0 : Vec Ideal S8x1024x128 .f32) (x1 : Vec Ideal S1024x128 .f32) (x2 : Vec Ideal S128x128 .f32)
    (x3 : Vec Ideal S1x128 .f32) (x4 : Vec Ideal S128x128 .f32) (x5 : Vec Ideal S1x128 .f32) (x6 : Vec Ideal S132x256 .f32)
    (x7 : Vec Ideal S1x132 .f32) (x8 : Vec Ideal S132x132 .f32) (x9 : Vec Ideal S1x132 .f32) (x10 : Vec Ideal S132x132 .f32)
    (x11 : Vec Ideal S1x132 .f32) (x12 : Vec Ideal S128x132 .f32) (x13 : Vec Ideal S1x128 .f32)
    (A0 : S65536x128.Idx → EReal) (A1 : S8x65536x128.Idx → EReal) (A2 : S128x128.Idx → EReal) (bm : Fin 128 → EReal)
    (A4 : S128x128.Idx → EReal) (bu : Fin 128 → EReal) (A6 : S132x256.Idx → EReal) (b0 : Fin 132 → EReal)
    (A8 : S132x132.Idx → EReal) (b1 : Fin 132 → EReal) (A10 : S132x132.Idx → EReal) (b2 : Fin 132 → EReal)
    (A12 : S128x132.Idx → EReal) (b3 : Fin 128 → EReal)
    (p : Fin 1024) (q : Fin 128) (i : S65536x128.Idx)
    (hsig : (fun j : Fin 128 => x1 (ix2 p j)) = fun j => A0 (ix2 (i 0) j))
    (hcomp : (fun (k : Fin 8) (d : Fin 128) => x0 (ix3 k p d)) = fun k d => A1 (ix3 k (i 0) d))
    (h2 : x2 = A2) (h3 : row0 (φ := .f32) x3 = bm) (h4 : x4 = A4) (h5 : row0 (φ := .f32) x5 = bu)
    (h6 : x6 = A6) (h7 : row0 (φ := .f32) x7 = b0) (h8 : x8 = A8) (h9 : row0 (φ := .f32) x9 = b1)
    (h10 : x10 = A10) (h11 : row0 (φ := .f32) x11 = b2) (h12 : x12 = A12) (h13 : row0 (φ := .f32) x13 = b3)
    (hcol : (i 1 : Fin 128) = q) :
    out0_14 (F := Ideal) x0 x1 x2 x3 x4 x5 x6 x7 x8 x9 x10 x11 x12 x13 (ix2 p q)
      = wholeResult messageSumFirst A0 A1 A2 bm A4 bu A6 b0 A8 b1 A10 b2 A12 b3 i := by
  refine (out_row x0 x1 x2 x3 x4 x5 x6 x7 x8 x9 x10 x11 x12 x13 p q).trans ?_
  subst h2 h4 h6 h8 h10 h12 h3 h5 h7 h9 h11 h13 hcol
  unfold wholeResult
  rw [hsig, hcomp]

/-! ## The printed index maps, decided over the 64 points -/

/-- The component and signal windows move with the output window along the rows and stay at block 0 elsewhere; the
    output window's row block is the point's number. -/
theorem idx_facts : ∀ t : Fin cfg0.N,
    win0_0.index t (0 : Fin 3) = 0 ∧ win0_0.index t (1 : Fin 3) = win0_14.index t (0 : Fin 2) ∧ win0_0.index t (2 : Fin 3) = 0
    ∧ win0_1.index t (0 : Fin 2) = win0_14.index t (0 : Fin 2) ∧ win0_1.index t (1 : Fin 2) = 0
    ∧ win0_14.index t (1 : Fin 2) = 0 ∧ win0_14.index t (0 : Fin 2) = t.val :=
  (by decide +kernel : ∀ t : Fin grid0.N, _)

/-- The weight and bias windows hold their whole array at every point: block index 0 on both axes. -/
theorem idx_whole : ∀ t : Fin cfg0.N,
    (win0_2.index t (0 : Fin 2) = 0 ∧ win0_2.index t (1 : Fin 2) = 0) ∧ (win0_3.index t (0 : Fin 2) = 0 ∧ win0_3.index t (1 : Fin 2) = 0)
    ∧ (win0_4.index t (0 : Fin 2) = 0 ∧ win0_4.index t (1 : Fin 2) = 0) ∧ (win0_5.index t (0 : Fin 2) = 0 ∧ win0_5.index t (1 : Fin 2) = 0)
    ∧ (win0_6.index t (0 : Fin 2) = 0 ∧ win0_6.index t (1 : Fin 2) = 0) ∧ (win0_7.index t (0 : Fin 2) = 0 ∧ win0_7.index t (1 : Fin 2) = 0)
    ∧ (win0_8.index t (0 : Fin 2) = 0 ∧ win0_8.index t (1 : Fin 2) = 0) ∧ (win0_9.index t (0 : Fin 2) = 0 ∧ win0_9.index t (1 : Fin 2) = 0)
    ∧ (win0_10.index t (0 : Fin 2) = 0 ∧ win0_10.index t (1 : Fin 2) = 0) ∧ (win0_11.index t (0 : Fin 2) = 0 ∧ win0_11.index t (1 : Fin 2) = 0)
    ∧ (win0_12.index t (0 : Fin 2) = 0 ∧ win0_12.index t (1 : Fin 2) = 0) ∧ (win0_13.index t (0 : Fin 2) = 0 ∧ win0_13.index t (1 : Fin 2) = 0) :=
  (by decide +kernel : ∀ t : Fin grid0.N, _)

variable (m : (ℓ : Loc nD τ sig) → Buf (Elt Ideal) ℓ) (ρ : Dev nD → PrngReg)

/-! ## What a point writes back -/

/-- The result as a function of the arrays the region finds. -/
def G (c : Dev nD) : S65536x128.Idx → EReal :=
  wholeResult messageSumFirst (V m c main_arg0) (V m c main_arg1) (V m c main_arg2) (fun e => V m c main_v0 (ix2 (0 : Fin 1) e))
    (V m c main_arg4) (fun e => V m c main_v1 (ix2 (0 : Fin 1) e)) (V m c main_arg6) (fun e => V m c main_v2 (ix2 (0 : Fin 1) e))
    (V m c main_arg8) (fun e => V m c main_v3 (ix2 (0 : Fin 1) e)) (V m c main_arg10) (fun e => V m c main_v4 (ix2 (0 : Fin 1) e))
    (V m c main_arg12) (fun e => V m c main_v5 (ix2 (0 : Fin 1) e))

/-- WHAT POINT `t` WRITES BACK is block `t` of `G`. -/
theorem flushed_eq (c : Dev nD) (t : Fin cfg0.N) :
    (dats m 0 c).flushed 14 t = ((cfg0.win 14).blk t).view.read (Elt Ideal) (G m c) := by
  rw [Cert.KernelIdeal.Value.flushed14]
  obtain ⟨e00, e01, e02, e10, e11, e141, e140⟩ := idx_facts t
  obtain ⟨⟨w20, w21⟩, ⟨w30, w31⟩, ⟨w40, w41⟩, ⟨w50, w51⟩, ⟨w60, w61⟩, ⟨w70, w71⟩, ⟨w80, w81⟩, ⟨w90, w91⟩, ⟨wa0, wa1⟩,
    ⟨wb0, wb1⟩, ⟨wc0, wc1⟩, ⟨wd0, wd1⟩⟩ := idx_whole t
  funext y
  show out0_14 (F := Ideal) (iblk m c 0 t) (iblk m c 1 t) (iblk m c 2 t) (iblk m c 3 t) (iblk m c 4 t) (iblk m c 5 t)
      (iblk m c 6 t) (iblk m c 7 t) (iblk m c 8 t) (iblk m c 9 t) (iblk m c 10 t) (iblk m c 11 t) (iblk m c 12 t)
      (iblk m c 13 t) y = G m c (((cfg0.win 14).blk t).view.emb y)
  unfold G
  refine (congrArg (out0_14 (F := Ideal) (iblk m c 0 t) (iblk m c 1 t) (iblk m c 2 t) (iblk m c 3 t) (iblk m c 4 t) (iblk m c 5 t)
      (iblk m c 6 t) (iblk m c 7 t) (iblk m c 8 t) (iblk m c 9 t) (iblk m c 10 t) (iblk m c 11 t) (iblk m c 12 t)
      (iblk m c 13 t)) (eq_ix2 y)).trans ?_
  refine point (iblk m c 0 t) (iblk m c 1 t) (iblk m c 2 t) (iblk m c 3 t) (iblk m c 4 t) (iblk m c 5 t)
      (iblk m c 6 t) (iblk m c 7 t) (iblk m c 8 t) (iblk m c 9 t) (iblk m c 10 t) (iblk m c 11 t) (iblk m c 12 t)
      (iblk m c 13 t) _ _ _ _ _ _ _ _ _ _ _ _ _ _ (y 0) (y 1) (((cfg0.win 14).blk t).view.emb y) ?_ ?_ ?_ ?_ ?_ ?_ ?_ ?_ ?_ ?_ ?_ ?_ ?_ ?_ ?_
  · funext j
    show V m c main_arg0 (((cfg0.win 1).blk t).view.emb (ix2 (y 0) j)) = V m c main_arg0 (ix2 ((((cfg0.win 14).blk t).view.emb y) 0) j)
    refine congrArg (V m c main_arg0) (funext fun a => Fin.ext ?_)
    match a with
    | ⟨0, _⟩ => show win0_1.index t (0 : Fin 2) * 1024 + 1 * (y 0).val = win0_14.index t (0 : Fin 2) * 1024 + 1 * (y 0).val; omega
    | ⟨1, _⟩ => show win0_1.index t (1 : Fin 2) * 128 + 1 * j.val = j.val; omega
  · funext k d
    show V m c main_arg1 (((cfg0.win 0).blk t).view.emb (ix3 k (y 0) d)) = V m c main_arg1 (ix3 k ((((cfg0.win 14).blk t).view.emb y) 0) d)
    refine congrArg (V m c main_arg1) (funext fun a => Fin.ext ?_)
    match a with
    | ⟨0, _⟩ => show win0_0.index t (0 : Fin 3) * 8 + 1 * k.val = k.val; omega
    | ⟨1, _⟩ => show win0_0.index t (1 : Fin 3) * 1024 + 1 * (y 0).val = win0_14.index t (0 : Fin 2) * 1024 + 1 * (y 0).val; omega
    | ⟨2, _⟩ => show win0_0.index t (2 : Fin 3) * 128 + 1 * d.val = d.val; omega
  · funext z
    show V m c main_arg2 (((cfg0.win 2).blk t).view.emb z) = V m c main_arg2 z
    refine congrArg (V m c main_arg2) (funext fun a => Fin.ext ?_)
    match a with
    | ⟨0, _⟩ => show win0_2.index t (0 : Fin 2) * 128 + 1 * (z 0).val = (z 0).val; omega
    | ⟨1, _⟩ => show win0_2.index t (1 : Fin 2) * 128 + 1 * (z 1).val = (z 1).val; omega
  · funext e
    show V m c main_v0 (((cfg0.win 3).blk t).view.emb (ix2 (0 : Fin 1) e)) = V m c main_v0 (ix2 (0 : Fin 1) e)
    refine congrArg (V m c main_v0) (funext fun a => Fin.ext ?_)
    match a with
    | ⟨0, _⟩ => show win0_3.index t (0 : Fin 2) * 1 + 1 * 0 = 0; omega
    | ⟨1, _⟩ => show win0_3.index t (1 : Fin 2) * 128 + 1 * e.val = e.val; omega
  · funext z
    show V m c main_arg4 (((cfg0.win 4).blk t).view.emb z) = V m c main_arg4 z
    refine congrArg (V m c main_arg4) (funext fun a => Fin.ext ?_)
    match a with
    | ⟨0, _⟩ => show win0_4.index t (0 : Fin 2) * 128 + 1 * (z 0).val = (z 0).val; omega
    | ⟨1, _⟩ => show win0_4.index t (1 : Fin 2) * 128 + 1 * (z 1).val = (z 1).val; omega
  · funext e
    show V m c main_v1 (((cfg0.win 5).blk t).view.emb (ix2 (0 : Fin 1) e)) = V m c main_v1 (ix2 (0 : Fin 1) e)
    refine congrArg (V m c main_v1) (funext fun a => Fin.ext ?_)
    match a with
    | ⟨0, _⟩ => show win0_5.index t (0 : Fin 2) * 1 + 1 * 0 = 0; omega
    | ⟨1, _⟩ => show win0_5.index t (1 : Fin 2) * 128 + 1 * e.val = e.val; omega
  · funext z
    show V m c main_arg6 (((cfg0.win 6).blk t).view.emb z) = V m c main_arg6 z
    refine congrArg (V m c main_arg6) (funext fun a => Fin.ext ?_)
    match a with
    | ⟨0, _⟩ => show win0_6.index t (0 : Fin 2) * 132 + 1 * (z 0).val = (z 0).val; omega
    | ⟨1, _⟩ => show win0_6.index t (1 : Fin 2) * 256 + 1 * (z 1).val = (z 1).val; omega
  · funext e
    show V m c main_v2 (((cfg0.win 7).blk t).view.emb (ix2 (0 : Fin 1) e)) = V m c main_v2 (ix2 (0 : Fin 1) e)
    refine congrArg (V m c main_v2) (funext fun a => Fin.ext ?_)
    match a with
    | ⟨0, _⟩ => show win0_7.index t (0 : Fin 2) * 1 + 1 * 0 = 0; omega
    | ⟨1, _⟩ => show win0_7.index t (1 : Fin 2) * 132 + 1 * e.val = e.val; omega
  · funext z
    show V m c main_arg8 (((cfg0.win 8).blk t).view.emb z) = V m c main_arg8 z
    refine congrArg (V m c main_arg8) (funext fun a => Fin.ext ?_)
    match a with
    | ⟨0, _⟩ => show win0_8.index t (0 : Fin 2) * 132 + 1 * (z 0).val = (z 0).val; omega
    | ⟨1, _⟩ => show win0_8.index t (1 : Fin 2) * 132 + 1 * (z 1).val = (z 1).val; omega
  · funext e
    show V m c main_v3 (((cfg0.win 9).blk t).view.emb (ix2 (0 : Fin 1) e)) = V m c main_v3 (ix2 (0 : Fin 1) e)
    refine congrArg (V m c main_v3) (funext fun a => Fin.ext ?_)
    match a with
    | ⟨0, _⟩ => show win0_9.index t (0 : Fin 2) * 1 + 1 * 0 = 0; omega
    | ⟨1, _⟩ => show win0_9.index t (1 : Fin 2) * 132 + 1 * e.val = e.val; omega
  · funext z
    show V m c main_arg10 (((cfg0.win 10).blk t).view.emb z) = V m c main_arg10 z
    refine congrArg (V m c main_arg10) (funext fun a => Fin.ext ?_)
    match a with
    | ⟨0, _⟩ => show win0_10.index t (0 : Fin 2) * 132 + 1 * (z 0).val = (z 0).val; omega
    | ⟨1, _⟩ => show win0_10.index t (1 : Fin 2) * 132 + 1 * (z 1).val = (z 1).val; omega
  · funext e
    show V m c main_v4 (((cfg0.win 11).blk t).view.emb (ix2 (0 : Fin 1) e)) = V m c main_v4 (ix2 (0 : Fin 1) e)
    refine congrArg (V m c main_v4) (funext fun a => Fin.ext ?_)
    match a with
    | ⟨0, _⟩ => show win0_11.index t (0 : Fin 2) * 1 + 1 * 0 = 0; omega
    | ⟨1, _⟩ => show win0_11.index t (1 : Fin 2) * 132 + 1 * e.val = e.val; omega
  · funext z
    show V m c main_arg12 (((cfg0.win 12).blk t).view.emb z) = V m c main_arg12 z
    refine congrArg (V m c main_arg12) (funext fun a => Fin.ext ?_)
    match a with
    | ⟨0, _⟩ => show win0_12.index t (0 : Fin 2) * 128 + 1 * (z 0).val = (z 0).val; omega
    | ⟨1, _⟩ => show win0_12.index t (1 : Fin 2) * 132 + 1 * (z 1).val = (z 1).val; omega
  · funext e
    show V m c main_v5 (((cfg0.win 13).blk t).view.emb (ix2 (0 : Fin 1) e)) = V m c main_v5 (ix2 (0 : Fin 1) e)
    refine congrArg (V m c main_v5) (funext fun a => Fin.ext ?_)
    match a with
    | ⟨0, _⟩ => show win0_13.index t (0 : Fin 2) * 1 + 1 * 0 = 0; omega
    | ⟨1, _⟩ => show win0_13.index t (1 : Fin 2) * 128 + 1 * e.val = e.val; omega
  · refine Fin.ext ?_
    show win0_14.index t (1 : Fin 2) * 128 + 1 * (y 1).val = (y 1).val
    omega

/-! ## The cover, and the array after the run -/

/-- An index of the result array is in point `t`'s block iff each coordinate is in the block's range on its axis. -/
theorem mem_blk (t : Fin cfg0.N) (i : S65536x128.Idx) :
    i ∈ ((cfg0.win 14).blk t).view.set ↔ ∀ a : Fin 2, win0_14.index t a * S1024x128.size a ≤ (i a).val
      ∧ (i a).val < win0_14.index t a * S1024x128.size a + S1024x128.size a := by
  show i ∈ ((View.whole main_v6).slice (win0_14.rect t)).set ↔ _
  rw [View.set_slice_whole, Rect.mem_set_unit]
  exact Iff.rfl

/-- Row i₀ is written back by point i₀ / 1024. -/
theorem cover (i : S65536x128.Idx) :
    ∃ t : Fin cfg0.N, (cfg0.win 14).flush t = true ∧ i ∈ ((cfg0.win 14).blk t).view.set := by
  have hi0 : (i 0).val < 65536 := (i 0).isLt
  have hi1 : (i 1).val < 128 := (i 1).isLt
  have hN : cfg0.N = 64 := N_0
  obtain ⟨t, ht⟩ : ∃ t : Fin cfg0.N, t.val = (i 0).val / 1024 := ⟨⟨(i 0).val / 1024, by rw [hN]; omega⟩, rfl⟩
  obtain ⟨-, -, -, -, -, e141, e140⟩ := idx_facts t
  refine ⟨t, flush0_14 t, ?_⟩
  rw [mem_blk]
  intro a
  match a with
  | ⟨0, _⟩ =>
    show win0_14.index t (0 : Fin 2) * 1024 ≤ (i 0).val ∧ (i 0).val < win0_14.index t (0 : Fin 2) * 1024 + 1024
    omega
  | ⟨1, _⟩ =>
    show win0_14.index t (1 : Fin 2) * 128 ≤ (i 1).val ∧ (i 1).val < win0_14.index t (1 : Fin 2) * 128 + 128
    omega

/-- THE ARRAY after the run is `G`. -/
theorem final (c : Dev nD) : (dats m 0 c).arrAt 14 cfg0.N = G m c :=
  (dats m 0 c).arrAt_eq_of_cover 14 (G m c) (fun t _ => flushed_eq m c t) cover

/-! ## The arrays the region finds are the arguments -/

/-- A bias array reshaped by the host from [n] to [1, n]: its one row is the argument. -/
theorem bias_v0 (c : Dev nD) : (fun e : Fin 128 => V m c main_v0 (ix2 (0 : Fin 1) e)) = fun e => m ((c : Thread nD τ).loc main_arg3) (ix1 e) := by
  have h : (V m c main_v0 : S1x128.Idx → EReal) = shapeCast S1x128 (m ((c : Thread nD τ).loc main_arg3)) shapeCasts_S128_S1x128 := by
    dsimp only [V, hostOps0]; after_results; rfl
  funext e; rw [h]; exact shapeCast_a_1a_apply _ _ 0 e
theorem bias_v1 (c : Dev nD) : (fun e : Fin 128 => V m c main_v1 (ix2 (0 : Fin 1) e)) = fun e => m ((c : Thread nD τ).loc main_arg5) (ix1 e) := by
  have h : (V m c main_v1 : S1x128.Idx → EReal) = shapeCast S1x128 (m ((c : Thread nD τ).loc main_arg5)) shapeCasts_S128_S1x128 := by
    dsimp only [V, hostOps0]; after_results; rfl
  funext e; rw [h]; exact shapeCast_a_1a_apply _ _ 0 e
theorem bias_v2 (c : Dev nD) : (fun e : Fin 132 => V m c main_v2 (ix2 (0 : Fin 1) e)) = fun e => m ((c : Thread nD τ).loc main_arg7) (ix1 e) := by
  have h : (V m c main_v2 : S1x132.Idx → EReal) = shapeCast S1x132 (m ((c : Thread nD τ).loc main_arg7)) shapeCasts_S132_S1x132 := by
    dsimp only [V, hostOps0]; after_results; rfl
  funext e; rw [h]; exact shapeCast_a_1a_apply _ _ 0 e
theorem bias_v3 (c : Dev nD) : (fun e : Fin 132 => V m c main_v3 (ix2 (0 : Fin 1) e)) = fun e => m ((c : Thread nD τ).loc main_arg9) (ix1 e) := by
  have h : (V m c main_v3 : S1x132.Idx → EReal) = shapeCast S1x132 (m ((c : Thread nD τ).loc main_arg9)) shapeCasts_S132_S1x132 := by
    dsimp only [V, hostOps0]; after_results; rfl
  funext e; rw [h]; exact shapeCast_a_1a_apply _ _ 0 e
theorem bias_v4 (c : Dev nD) : (fun e : Fin 132 => V m c main_v4 (ix2 (0 : Fin 1) e)) = fun e => m ((c : Thread nD τ).loc main_arg11) (ix1 e) := by
  have h : (V m c main_v4 : S1x132.Idx → EReal) = shapeCast S1x132 (m ((c : Thread nD τ).loc main_arg11)) shapeCasts_S132_S1x132 := by
    dsimp only [V, hostOps0]; after_results; rfl
  funext e; rw [h]; exact shapeCast_a_1a_apply _ _ 0 e
theorem bias_v5 (c : Dev nD) : (fun e : Fin 128 => V m c main_v5 (ix2 (0 : Fin 1) e)) = fun e => m ((c : Thread nD τ).loc main_arg13) (ix1 e) := by
  have h : (V m c main_v5 : S1x128.Idx → EReal) = shapeCast S1x128 (m ((c : Thread nD τ).loc main_arg13)) shapeCasts_S128_S1x128 := by
    dsimp only [V, hostOps0]; after_results; rfl
  funext e; rw [h]; exact shapeCast_a_1a_apply _ _ 0 e

/-- The result as a function of the ARGUMENT arrays. -/
def result (c : Dev nD) : S65536x128.Idx → EReal :=
  wholeResult messageSumFirst (m ((c : Thread nD τ).loc main_arg0)) (m ((c : Thread nD τ).loc main_arg1))
    (m ((c : Thread nD τ).loc main_arg2)) (fun e => m ((c : Thread nD τ).loc main_arg3) (ix1 e))
    (m ((c : Thread nD τ).loc main_arg4)) (fun e => m ((c : Thread nD τ).loc main_arg5) (ix1 e))
    (m ((c : Thread nD τ).loc main_arg6)) (fun e => m ((c : Thread nD τ).loc main_arg7) (ix1 e))
    (m ((c : Thread nD τ).loc main_arg8)) (fun e => m ((c : Thread nD τ).loc main_arg9) (ix1 e))
    (m ((c : Thread nD τ).loc main_arg10)) (fun e => m ((c : Thread nD τ).loc main_arg11) (ix1 e))
    (m ((c : Thread nD τ).loc main_arg12)) (fun e => m ((c : Thread nD τ).loc main_arg13) (ix1 e))

theorem G_eq (c : Dev nD) : G m c = result m c := by
  unfold G result
  rw [bias_v0, bias_v1, bias_v2, bias_v3, bias_v4, bias_v5, V_main_arg0, V_main_arg1, V_main_arg2, V_main_arg4, V_main_arg6,
    V_main_arg8, V_main_arg10, V_main_arg12]

/-! ## The run -/

/-- Every weakly fair execution of the kernel program ends with the result array at `result` of the arguments and the
    arguments unchanged. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun r h c => ⟨(h c).1.trans ((final m c).trans (G_eq m c)), (h c).2⟩)
    (Cert.KernelIdeal.Value.run_blocks m ρ)

end Cert.KernelIdeal.Whole

end
-- ==== Proof.RefRows.lean ====
/-
  The reference, read at the extended reals one entry at a time, over its generated stage-by-stage reading. Entry
  (p, e) of each stage depends on row p of the stage before: the message is the map-first arrangement of row p of the
  eight components (`message_row`), every `x @ W.T + b` is the affine row map (`layer*_row`), `relu` is the positive
  part, and the concatenation puts the signal row beside the updated message row (`joined_row`). Composed, the result
  array is `RowMaps.wholeResult` in the map-first arrangement (`result_eq`).
-/
import proofs.«155570_j51376398795078_1_alg».proof.Proof.Gen.ReferenceIdeal.Read
import proofs.«155570_j51376398795078_1_alg».proof.Proof.RowMaps

noncomputable section

namespace Cert.ReferenceIdeal.Rows

open Idealize.ShloMosaic Idealize.ShloMosaic.ValueIdx Cert.ReferenceIdeal Cert.ReferenceIdeal.Gen Cert.ReferenceIdeal.Read Cert.RowMaps

variable (x0 : S65536x128.Idx → EReal) (x1 : S8x65536x128.Idx → EReal) (x2 : S128x128.Idx → EReal) (x3 : S128.Idx → EReal)
  (x4 : S128x128.Idx → EReal) (x5 : S128.Idx → EReal) (x6 : S132x256.Idx → EReal) (x7 : S132.Idx → EReal)
  (x8 : S132x132.Idx → EReal) (x9 : S132.Idx → EReal) (x10 : S132x132.Idx → EReal) (x11 : S132.Idx → EReal)
  (x12 : S128x132.Idx → EReal) (x13 : S128.Idx → EReal)

/-- The message: for each of the eight components the products with a weight row summed and the bias added, the
    eight results summed from zero. -/
theorem message_row (p : Fin 65536) (e : Fin 128) :
    val_main_v4 (F := Ideal) x1 x2 x3 (ix2 p e)
      = messageMapFirst (fun k d => x1 (ix3 k p d)) (fun e d => x2 (ix2 e d)) (fun e => x3 (ix1 e)) e := by
  rw [val_main_v4_apply, val_main_cst_apply, Ideal.ofBits_def, Ideal.ofBits_zero_f32]
  unfold messageMapFirst
  refine congrArg (0 + ·) (Finset.sum_congr rfl fun k _ => ?_)
  rw [val_main_v3_apply, Ideal.addf_def, val_main_v0_apply, val_main_v2_apply, val_main_v1_apply]
  refine congrArg₂ (· + ·) (Finset.sum_congr rfl fun d _ => congrArg₂ (· * ·) (congrArg x1 ?_) (congrArg x2 ?_)) (congrArg x3 ?_)
  · exact funext fun a => Fin.ext (by match a with | ⟨0, _⟩ => rfl | ⟨1, _⟩ => rfl | ⟨2, _⟩ => rfl)
  · exact funext fun a => Fin.ext (by match a with | ⟨0, _⟩ => rfl | ⟨1, _⟩ => rfl)
  · exact funext fun a => Fin.ext (by match a with | ⟨0, _⟩ => rfl)

/-- `right @ Wu.T + bu`. -/
theorem layer9_row (p : Fin 65536) (e : Fin 128) :
    val_main_v9 (F := Ideal) x1 x2 x3 x4 x5 (ix2 p e)
      = affine (fun e d => x4 (ix2 e d)) (fun e => x5 (ix1 e)) (fun d => val_main_v4 (F := Ideal) x1 x2 x3 (ix2 p d)) e := by
  rw [val_main_v9_apply, Ideal.addf_def, val_main_v6_apply, val_main_v8_apply, val_main_v7_apply]
  unfold affine
  refine congrArg₂ (· + ·) (Finset.sum_congr rfl fun k _ => ?_) (congrArg x5 ?_)
  · rw [val_main_v5_apply]
    refine congrArg₂ (· * ·) (congrArg (val_main_v4 (F := Ideal) x1 x2 x3) ?_) (congrArg x4 ?_)
    · exact funext fun a => Fin.ext (by match a with | ⟨0, _⟩ => rfl | ⟨1, _⟩ => rfl)
    · exact funext fun a => Fin.ext (by match a with | ⟨0, _⟩ => rfl | ⟨1, _⟩ => rfl)
  · exact funext fun a => Fin.ext (by match a with | ⟨0, _⟩ => rfl)

/-- The signal row beside the updated message row. -/
theorem joined_row (p : Fin 65536) (j : Fin 256) :
    val_main_v10 (F := Ideal) x0 x1 x2 x3 x4 x5 (ix2 p j)
      = join (fun d => x0 (ix2 p d)) (fun d => val_main_v9 (F := Ideal) x1 x2 x3 x4 x5 (ix2 p d)) j := by
  unfold val_main_v10
  exact concatenate_eq_join x0 (val_main_v9 (F := Ideal) x1 x2 x3 x4 x5) concatenates_S65536x128_S65536x128_S65536x256_d1 p j

/-- `x @ W0.T + b0` of the joined row. -/
theorem layer15_row (p : Fin 65536) (e : Fin 132) :
    val_main_v15 (F := Ideal) x0 x1 x2 x3 x4 x5 x6 x7 (ix2 p e)
      = affine (fun e d => x6 (ix2 e d)) (fun e => x7 (ix1 e)) (fun d => val_main_v10 (F := Ideal) x0 x1 x2 x3 x4 x5 (ix2 p d)) e := by
  rw [val_main_v15_apply, Ideal.addf_def, val_main_v12_apply, val_main_v14_apply, val_main_v13_apply]
  unfold affine
  refine congrArg₂ (· + ·) (Finset.sum_congr rfl fun k _ => ?_) (congrArg x7 ?_)
  · rw [val_main_v11_apply]
    refine congrArg₂ (· * ·) (congrArg (val_main_v10 (F := Ideal) x0 x1 x2 x3 x4 x5) ?_) (congrArg x6 ?_)
    · exact funext fun a => Fin.ext (by match a with | ⟨0, _⟩ => rfl | ⟨1, _⟩ => rfl)
    · exact funext fun a => Fin.ext (by match a with | ⟨0, _⟩ => rfl | ⟨1, _⟩ => rfl)
  · exact funext fun a => Fin.ext (by match a with | ⟨0, _⟩ => rfl)

/-- The first `relu`. -/
theorem relu16_row (p : Fin 65536) (e : Fin 132) :
    val_main_v16 (F := Ideal) x0 x1 x2 x3 x4 x5 x6 x7 (ix2 p e)
      = relu (fun d => val_main_v15 (F := Ideal) x0 x1 x2 x3 x4 x5 x6 x7 (ix2 p d)) e := by
  rw [val_main_v16_apply, Ideal.maximumf_def, val_main_call0_v0_apply, val_main_call0_cst_apply, Ideal.ofBits_def,
    Ideal.ofBits_zero_f32]
  rfl

/-- `x @ W1.T + b1`. -/
theorem layer21_row (p : Fin 65536) (e : Fin 132) :
    val_main_v21 (F := Ideal) x0 x1 x2 x3 x4 x5 x6 x7 x8 x9 (ix2 p e)
      = affine (fun e d => x8 (ix2 e d)) (fun e => x9 (ix1 e)) (fun d => val_main_v16 (F := Ideal) x0 x1 x2 x3 x4 x5 x6 x7 (ix2 p d)) e := by
  rw [val_main_v21_apply, Ideal.addf_def, val_main_v18_apply, val_main_v20_apply, val_main_v19_apply]
  unfold affine
  refine congrArg₂ (· + ·) (Finset.sum_congr rfl fun k _ => ?_) (congrArg x9 ?_)
  · rw [val_main_v17_apply]
    refine congrArg₂ (· * ·) (congrArg (val_main_v16 (F := Ideal) x0 x1 x2 x3 x4 x5 x6 x7) ?_) (congrArg x8 ?_)
    · exact funext fun a => Fin.ext (by match a with | ⟨0, _⟩ => rfl | ⟨1, _⟩ => rfl)
    · exact funext fun a => Fin.ext (by match a with | ⟨0, _⟩ => rfl | ⟨1, _⟩ => rfl)
  · exact funext fun a => Fin.ext (by match a with | ⟨0, _⟩ => rfl)

/-- The second `relu`. -/
theorem relu22_row (p : Fin 65536) (e : Fin 132) :
    val_main_v22 (F := Ideal) x0 x1 x2 x3 x4 x5 x6 x7 x8 x9 (ix2 p e)
      = relu (fun d => val_main_v21 (F := Ideal) x0 x1 x2 x3 x4 x5 x6 x7 x8 x9 (ix2 p d)) e := by
  rw [val_main_v22_apply, Ideal.maximumf_def, val_main_call1_v0_apply, val_main_call1_cst_apply, Ideal.ofBits_def,
    Ideal.ofBits_zero_f32]
  rfl

/-- `x @ W2.T + b2`. -/
theorem layer27_row (p : Fin 65536) (e : Fin 132) :
    val_main_v27 (F := Ideal) x0 x1 x2 x3 x4 x5 x6 x7 x8 x9 x10 x11 (ix2 p e)
      = affine (fun e d => x10 (ix2 e d)) (fun e => x11 (ix1 e))
          (fun d => val_main_v22 (F := Ideal) x0 x1 x2 x3 x4 x5 x6 x7 x8 x9 (ix2 p d)) e := by
  rw [val_main_v27_apply, Ideal.addf_def, val_main_v24_apply, val_main_v26_apply, val_main_v25_apply]
  unfold affine
  refine congrArg₂ (· + ·) (Finset.sum_congr rfl fun k _ => ?_) (congrArg x11 ?_)
  · rw [val_main_v23_apply]
    refine congrArg₂ (· * ·) (congrArg (val_main_v22 (F := Ideal) x0 x1 x2 x3 x4 x5 x6 x7 x8 x9) ?_) (congrArg x10 ?_)
    · exact funext fun a => Fin.ext (by match a with | ⟨0, _⟩ => rfl | ⟨1, _⟩ => rfl)
    · exact funext fun a => Fin.ext (by match a with | ⟨0, _⟩ => rfl | ⟨1, _⟩ => rfl)
  · exact funext fun a => Fin.ext (by match a with | ⟨0, _⟩ => rfl)

/-- The third `relu`. -/
theorem relu28_row (p : Fin 65536) (e : Fin 132) :
    val_main_v28 (F := Ideal) x0 x1 x2 x3 x4 x5 x6 x7 x8 x9 x10 x11 (ix2 p e)
      = relu (fun d => val_main_v27 (F := Ideal) x0 x1 x2 x3 x4 x5 x6 x7 x8 x9 x10 x11 (ix2 p d)) e := by
  rw [val_main_v28_apply, Ideal.maximumf_def, val_main_call2_v0_apply, val_main_call2_cst_apply, Ideal.ofBits_def,
    Ideal.ofBits_zero_f32]
  rfl

/-- `x @ W3.T + b3`. -/
theorem layer33_row (p : Fin 65536) (e : Fin 128) :
    val_main_v33 (F := Ideal) x0 x1 x2 x3 x4 x5 x6 x7 x8 x9 x10 x11 x12 x13 (ix2 p e)
      = affine (fun e d => x12 (ix2 e d)) (fun e => x13 (ix1 e))
          (fun d => val_main_v28 (F := Ideal) x0 x1 x2 x3 x4 x5 x6 x7 x8 x9 x10 x11 (ix2 p d)) e := by
  rw [val_main_v33_apply, Ideal.addf_def, val_main_v30_apply, val_main_v32_apply, val_main_v31_apply]
  unfold affine
  refine congrArg₂ (· + ·) (Finset.sum_congr rfl fun k _ => ?_) (congrArg x13 ?_)
  · rw [val_main_v29_apply]
    refine congrArg₂ (· * ·) (congrArg (val_main_v28 (F := Ideal) x0 x1 x2 x3 x4 x5 x6 x7 x8 x9 x10 x11) ?_) (congrArg x12 ?_)
    · exact funext fun a => Fin.ext (by match a with | ⟨0, _⟩ => rfl | ⟨1, _⟩ => rfl)
    · exact funext fun a => Fin.ext (by match a with | ⟨0, _⟩ => rfl | ⟨1, _⟩ => rfl)
  · exact funext fun a => Fin.ext (by match a with | ⟨0, _⟩ => rfl)

/-- THE REFERENCE'S RESULT is the whole-array function in the map-first arrangement. -/
theorem result_eq :
    val_main_v33 (F := Ideal) x0 x1 x2 x3 x4 x5 x6 x7 x8 x9 x10 x11 x12 x13
      = wholeResult messageMapFirst x0 x1 x2 (fun e => x3 (ix1 e)) x4 (fun e => x5 (ix1 e)) x6 (fun e => x7 (ix1 e))
          x8 (fun e => x9 (ix1 e)) x10 (fun e => x11 (ix1 e)) x12 (fun e => x13 (ix1 e)) := by
  funext i
  obtain ⟨p, e, rfl⟩ : ∃ (p : Fin 65536) (e : Fin 128), i = ix2 p e := ⟨i 0, i 1, eq_ix2 i⟩
  rw [layer33_row]
  simp only [relu28_row, layer27_row, relu22_row, layer21_row, relu16_row, layer15_row, joined_row, layer9_row, message_row]
  rfl

end Cert.ReferenceIdeal.Rows

end
-- ==== Proof.Finite.lean ====
/-
  What the precondition gives. It is the conjunction, over the fourteen inputs, of "every entry's absolute value is
  below +∞", each conjunct a reduction by `and` of the entrywise comparison. An extended real whose absolute value is
  below +∞ is neither infinity, so it is a real number. Only three inputs are needed as reals for the certificate: the
  eight components, the message weights and the message bias — the operands of the one distributive step.
-/
import proofs.«155570_j51376398795078_1_alg».proof.Defs
import proofs.«155570_j51376398795078_1_alg».proof.Proof.Gen.Pre_finite_inputs
import Idealize.ShloMosaic.Lib.ReduceAll
import Idealize.ShloMosaic.Lib.ValueIdx
import Idealize.ShloMosaic.Lib.Pipeline.Value
import Idealize.ShloMosaic.PureOps.Ideal.Laws

noncomputable section

namespace Cert.Finite

open Idealize.ShloMosaic Cert.Pre_finite_inputs

instance : Subsingleton S_.Idx := ⟨fun a b => funext fun d => d.elim0⟩

/-- The word `0x7F800000` is +∞. -/
theorem inf_word : Ideal.ofBits .f32 0x7F800000#32 = (⊤ : EReal) := by simp [Ideal.ofBits, Ideal.ieee]

/-- An extended real whose absolute value is below +∞ is a real number. -/
theorem real_of_abs_lt (x : EReal)
    (h : Ideal.cmp .olt (max x (-x)) (Ideal.ofBits .f32 0x7F800000#32) = 1#1) : ∃ r : ℝ, x = (r : EReal) := by
  rw [inf_word] at h
  induction x using EReal.rec with
  | bot => simp [Ideal.cmp] at h
  | top => simp [Ideal.cmp] at h
  | coe r => exact ⟨r, rfl⟩

/-- One conjunct of the precondition: if "all entries of |x| are below +∞" reduces to 1, every entry of `x` is real. -/
theorem real_of_all {s : Shape} {axes : List (Fin s.rank)} (x : FVec Ideal s .f32)
    (hb : S_.BroadcastsInDim s (![] : Fin 0 → Fin s.rank)) (hr : s.ReducesTo axes S_) (hu : 0 < S_.numel)
    (h : Host.reduce IntOp.andi (cmpf .olt (Host.absf x) (broadcastInDim s ![] hb (constant (F := Ideal) S_ .f32 0x7F800000#32)))
        (constantI S_ 1 1#1) hr hu ValueIdx.ix0 = 1#1) (i : s.Idx) : ∃ r : ℝ, x i = (r : EReal) := by
  have e := Host.reduce_andi_all _ _ hr hu _ h i
  refine real_of_abs_lt (x i) ?_
  rw [← e]
  show _ = Ideal.cmp .olt (max (x i) (-(x i))) (broadcastInDim s ![] hb (constant (F := Ideal) S_ .f32 0x7F800000#32) i)
  rw [broadcastInDim_apply _ hb _ i ValueIdx.ix0 (fun a => a.elim0)]
  rfl

variable [Cert.Pre_finite_inputs.Facts]

/-- From the whole precondition: the components, the message weights and the message bias are real, entry by entry. -/
theorem reals_of_pre (x0 : FVec Ideal S65536x128 .f32) (x1 : FVec Ideal S8x65536x128 .f32) (x2 : FVec Ideal S128x128 .f32)
    (x3 : FVec Ideal S128 .f32) (x4 : FVec Ideal S128x128 .f32) (x5 : FVec Ideal S128 .f32) (x6 : FVec Ideal S132x256 .f32)
    (x7 : FVec Ideal S132 .f32) (x8 : FVec Ideal S132x132 .f32) (x9 : FVec Ideal S132 .f32) (x10 : FVec Ideal S132x132 .f32)
    (x11 : FVec Ideal S132 .f32) (x12 : FVec Ideal S128x132 .f32) (x13 : FVec Ideal S128 .f32)
    (h : fn (F := Ideal) x0 x1 x2 x3 x4 x5 x6 x7 x8 x9 x10 x11 x12 x13 = fun _ => 1#1) :
    (∀ i, ∃ r : ℝ, x1 i = (r : EReal)) ∧ (∀ i, ∃ r : ℝ, x2 i = (r : EReal)) ∧ (∀ i, ∃ r : ℝ, x3 i = (r : EReal)) := by
  have h0 := congrFun h ValueIdx.ix0
  dsimp only [fn, fn_part1, fn_part2, fn_part3, fn_part4] at h0
  obtain ⟨h63, -⟩ := IntOp.andi_eq_one.1 h0
  obtain ⟨h58, -⟩ := IntOp.andi_eq_one.1 h63
  obtain ⟨h53, -⟩ := IntOp.andi_eq_one.1 h58
  obtain ⟨h48, -⟩ := IntOp.andi_eq_one.1 h53
  obtain ⟨h43, -⟩ := IntOp.andi_eq_one.1 h48
  obtain ⟨h38, -⟩ := IntOp.andi_eq_one.1 h43
  obtain ⟨h33, -⟩ := IntOp.andi_eq_one.1 h38
  obtain ⟨h28, -⟩ := IntOp.andi_eq_one.1 h33
  obtain ⟨h23, -⟩ := IntOp.andi_eq_one.1 h28
  obtain ⟨h18, -⟩ := IntOp.andi_eq_one.1 h23
  obtain ⟨h13, h17⟩ := IntOp.andi_eq_one.1 h18
  obtain ⟨h8, h12⟩ := IntOp.andi_eq_one.1 h13
  obtain ⟨-, h7⟩ := IntOp.andi_eq_one.1 h8
  exact ⟨real_of_all x1 _ _ _ h7, real_of_all x2 _ _ _ h12, real_of_all x3 _ _ _ h17⟩

end Cert.Finite

end
-- ==== Proof.lean ====
/-
  The certificate of a message-passing update over 65536 rows: each output row is a function of ONE row of the signal
  and of the same row of each of eight component arrays.

  Both programs form a MESSAGE row from the eight component rows c₀ … c₇ with one linear layer (weights Wm, bias bm),
  then apply `· Wuᵀ + bu`, put the signal row beside the result, and run a four-layer perceptron (three layers followed
  by the positive part, and a last linear layer). They differ in ONE place: the kernel adds the eight component rows
  first and applies the linear map once, adding eight times the bias, `(∑ₖ cₖ) · Wmᵀ + 8 · bm`; the reference applies the
  layer to each component and then adds, `∑ₖ (cₖ · Wmᵀ + bm)`. On real numbers these are equal by distributivity
  (`RowMaps.message_eq`); on the extended reals distributivity fails at the infinities, and this is where the
  precondition — every input entry finite — is used, for the components, Wm and bm only (`Finite.reals_of_pre`).
  Everything after the message is the same row map on both sides (`RowMaps.update`), so no further algebra is needed:
  a change of float format is the identity, a product accumulated from zero and a host dot product are the same sum,
  and the kernel's 64 blocks of 1024 rows tile the rows (`KernelIdeal.Whole`), while the reference computes all rows at
  once (`ReferenceIdeal.Rows`).

  The three frames are the generated ones (the reference's from its generated run), and the idealization rewrote no
  operation, so `preserves` has nothing to state.
-/
import proofs.«155570_j51376398795078_1_alg».proof.Defs
import proofs.«155570_j51376398795078_1_alg».proof.Proof.Gen.Kernel
import proofs.«155570_j51376398795078_1_alg».proof.Proof.Gen.Kernel.Skeleton
import proofs.«155570_j51376398795078_1_alg».proof.Proof.Gen.Kernel.Launch
import proofs.«155570_j51376398795078_1_alg».proof.Proof.Gen.Kernel.Points
import proofs.«155570_j51376398795078_1_alg».proof.Proof.Gen.Kernel.Frame
import proofs.«155570_j51376398795078_1_alg».proof.Proof.Gen.KernelIdeal
import proofs.«155570_j51376398795078_1_alg».proof.Proof.Gen.KernelIdeal.Skeleton
import proofs.«155570_j51376398795078_1_alg».proof.Proof.Gen.KernelIdeal.Launch
import proofs.«155570_j51376398795078_1_alg».proof.Proof.Gen.KernelIdeal.Points
import proofs.«155570_j51376398795078_1_alg».proof.Proof.Gen.KernelIdeal.Frame
import proofs.«155570_j51376398795078_1_alg».proof.Proof.Gen.ReferenceIdeal
import proofs.«155570_j51376398795078_1_alg».proof.Proof.Gen.Pre_finite_inputs
import proofs.«155570_j51376398795078_1_alg».proof.Proof.Gen.KernelIdeal.Value
import proofs.«155570_j51376398795078_1_alg».proof.Proof.Gen.ReferenceIdeal.Run
import proofs.«155570_j51376398795078_1_alg».proof.Proof.Gen.ReferenceIdeal.Read
import proofs.«155570_j51376398795078_1_alg».proof.Proof.KernelArray
import proofs.«155570_j51376398795078_1_alg».proof.Proof.RefRows
import proofs.«155570_j51376398795078_1_alg».proof.Proof.Finite
import Idealize.ShloMosaic.Adequacy
import Idealize.ShloMosaic.Init

noncomputable section

namespace Cert.Proof

open Idealize.ShloMosaic Idealize.ShloMosaic.ValueIdx Idealize.SL.Sem Cert.RowMaps

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The kernel's run ends at the whole-array function in the sum-first arrangement, the reference's at the same
    function in the map-first arrangement of arguments that agree; the precondition makes the components, the message
    weights and the message bias real, and on reals the two arrangements are one. -/
theorem algebraic : Cert.algebraic_KernelIdeal_ReferenceIdeal := by
  intro m ρ m' ρ' hpre hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v33_eq, Cert.ReferenceIdeal.Rows.result_eq]
  obtain ⟨a0, a1, a2, a3, a4, a5, a6, a7, a8, a9, a10, a11, a12, a13⟩ := hagree c
  rw [a0, a1, a2, a3, a4, a5, a6, a7, a8, a9, a10, a11, a12, a13]
  obtain ⟨hc, hW, hb⟩ := Cert.Finite.reals_of_pre _ _ _ _ _ _ _ _ _ _ _ _ _ _ (hpre c)
  unfold Cert.KernelIdeal.Whole.result
  exact (wholeResult_arrangements _ _ _ _ _ _ _ _ _ _ _ _ _ _ hc hW (fun e => hb (ix1 e))).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
